-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x7168 : Shape := ⟨2, ![4096, 7168]⟩
abbrev S7168x2048 : Shape := ⟨2, ![7168, 2048]⟩
abbrev S_ : Shape := ⟨0, ![]⟩

class Facts : Prop where
  bcast_S_S4096x7168 : S_.BroadcastsInDim S4096x7168 (![] : Fin 0 → Fin S4096x7168.rank)
  reducesTo_S4096x7168_S_d0_1 : S4096x7168.ReducesTo [0, 1] S_
  h_S_ : 0 < S_.numel
  bcast_S_S7168x2048 : S_.BroadcastsInDim S7168x2048 (![] : Fin 0 → Fin S7168x2048.rank)
  reducesTo_S7168x2048_S_d0_1 : S7168x2048.ReducesTo [0, 1] S_

variable [Facts]

def fn {F : FTy → Type} [FloatOps F] (main_arg0 : FVec F S4096x7168 .f32) (main_arg1 : FVec F S4096x7168 .f32) (main_arg2 : FVec F S7168x2048 .f32) : IVec S_ 1 :=
  let main_v0 : FVec F S4096x7168 .f32 := Host.absf main_arg0
  let main_cst : FVec F S_ .f32 := constant S_ .f32 0x7F800000#32
  let main_v1 : FVec F S4096x7168 .f32 := broadcastInDim S4096x7168 ![] bcast_S_S4096x7168 main_cst
  let main_v2 : IVec S4096x7168 1 := cmpf .olt main_v0 main_v1
  let main_c : IVec S_ 1 := constantI S_ 1 1#1
  let main_v3 : IVec S_ 1 := (fun x v => Host.reduce IntOp.andi x v reducesTo_S4096x7168_S_d0_1 h_S_) main_v2 main_c
  let main_v4 : FVec F S4096x7168 .f32 := Host.absf main_arg1
  let main_cst_0 : FVec F S_ .f32 := constant S_ .f32 0x7F800000#32
  let main_v5 : FVec F S4096x7168 .f32 := broadcastInDim S4096x7168 ![] bcast_S_S4096x7168 main_cst_0
  let main_v6 : IVec S4096x7168 1 := cmpf .olt main_v4 main_v5
  let main_c_1 : IVec S_ 1 := constantI S_ 1 1#1
  let main_v7 : IVec S_ 1 := (fun x v => Host.reduce IntOp.andi x v reducesTo_S4096x7168_S_d0_1 h_S_) main_v6 main_c_1
  let main_v8 : IVec S_ 1 := andi main_v3 main_v7
  let main_v9 : FVec F S7168x2048 .f32 := Host.absf main_arg2
  let main_cst_2 : FVec F S_ .f32 := constant S_ .f32 0x7F800000#32
  let main_v10 : FVec F S7168x2048 .f32 := broadcastInDim S7168x2048 ![] bcast_S_S7168x2048 main_cst_2
  let main_v11 : IVec S7168x2048 1 := cmpf .olt main_v9 main_v10
  let main_c_3 : IVec S_ 1 := constantI S_ 1 1#1
  let main_v12 : IVec S_ 1 := (fun x v => Host.reduce IntOp.andi x v reducesTo_S7168x2048_S_d0_1 h_S_) main_v11 main_c_3
  let main_v13 : IVec S_ 1 := andi main_v8 main_v12
  main_v13
-- ==== Kernel.lean ====
abbrev S4096x7168 : Shape := ⟨2, ![4096, 7168]⟩
abbrev S7168x2048 : Shape := ⟨2, ![7168, 2048]⟩
abbrev S4096x2048 : Shape := ⟨2, ![4096, 2048]⟩
abbrev S1024x256 : Shape := ⟨2, ![1024, 256]⟩
abbrev S4096x256 : Shape := ⟨2, ![4096, 256]⟩
abbrev S1024x2048 : Shape := ⟨2, ![1024, 2048]⟩
abbrev S1024x4096 : Shape := ⟨2, ![1024, 4096]⟩
abbrev S1024x1024 : Shape := ⟨2, ![1024, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x7168, .f32⟩
  | .hbm, ⟨1, _⟩ => ⟨S4096x7168, .f32⟩
  | .hbm, ⟨2, _⟩ => ⟨S7168x2048, .f32⟩
  | .hbm, ⟨3, _⟩ => ⟨S4096x7168, .bf16⟩
  | .hbm, ⟨4, _⟩ => ⟨S4096x7168, .bf16⟩
  | .hbm, ⟨5, _⟩ => ⟨S7168x2048, .bf16⟩
  | .hbm, ⟨6, _⟩ => ⟨S4096x2048, .bf16⟩
  | .hbm, ⟨7, _⟩ => ⟨S4096x7168, .f32⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S1024x2048, .bf16⟩
  | .local _ .vmem, ⟨5, _⟩ => ⟨S1024x2048, .bf16⟩
  | .local _ .vmem, ⟨6, _⟩ => ⟨S1024x4096, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x1024, .f32⟩
  | .local _ .vmem, ⟨12, _⟩ => ⟨S1024x1024, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 28], ![false, false]⟩

def k0_cond2 (i : grid0.Coords) : BitVec 1 :=
  let arg1 : BitVec 32 := BitVec.ofNat 32 (i 1).val
  let c27_i32 : BitVec 32 := 27#32
  let v13 : BitVec 1 := Scalar.cmpi .eq arg1 c27_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 7], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  slices_S1024x4096_o0_0_S1024x2048 : S1024x4096.Slices ![0, 0] S1024x2048
  slices_S1024x4096_o0_2048_S1024x2048 : S1024x4096.Slices ![0, 2048] S1024x2048
  inb_S1024x2048_S1024x2048_0_0 : ∀ a, (![0, 0] : Fin 2 → Nat) a + S1024x2048.size a ≤ S1024x2048.size a
  h_S1024x2048 : 0 < S1024x2048.numel
  packedbf16_S1024x2048_S1024x2048_0_0 : (Rect.unit (s := S1024x2048) ![0, 0] S1024x2048.size inb_S1024x2048_S1024x2048_0_0).PackedRows (EltTy.packing .bf16)
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  dot_S1024x256_S4096x256_S1024x4096_1_1_0_0_n_n_wf : DotDims.WF S1024x256 S4096x256 S1024x4096 [1] [1] [0] [0] [] []
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x7168.size a
  hwx0_0 : ∀ i : grid0.Coords, EltTy.bits .bf16 = 32 ∨ (Rect.block (s := S4096x7168) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x7168.size a
  hwx0_1 : ∀ i : grid0.Coords, EltTy.bits .bf16 = 32 ∨ (Rect.block (s := S4096x7168) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x2048.size a
  hwx0_2 : ∀ i : grid0.Coords, EltTy.bits .bf16 = 32 ∨ (Rect.block (s := S4096x2048) S1024x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x2048.size a
  hwx1_0 : ∀ i : grid1.Coords, EltTy.bits .bf16 = 32 ∨ (Rect.block (s := S4096x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S7168x2048.size a
  hwx1_1 : ∀ i : grid1.Coords, EltTy.bits .bf16 = 32 ∨ (Rect.block (s := S7168x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x7168.size a
  hwx1_2 : ∀ i : grid1.Coords, EltTy.bits .f32 = 32 ∨ (Rect.block (s := S4096x7168) S1024x1024.size (cc1_transform_2 i) (hinb1_2 i)).WholeWords (EltTy.packing .f32)

variable [Facts₀]

def dot_S1024x256_S4096x256_S1024x4096_1_1_0_0_n_n : DotDims S1024x256 S4096x256 S1024x4096 where
  lhsContracting := [1]
  rhsContracting := [1]
  lhsNonContracting := [0]
  rhsNonContracting := [0]
  lhsBatch := []
  rhsBatch := []
  wf := dot_S1024x256_S4096x256_S1024x4096_1_1_0_0_n_n_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v3) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x7168 : Shape := ⟨2, ![4096, 7168]⟩
abbrev S7168x2048 : Shape := ⟨2, ![7168, 2048]⟩
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S4096x7168, .f32⟩
  | .hbm, ⟨2, _⟩ => ⟨S7168x2048, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x7168, .f32⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S4096x4096_S4096x2048_0_0 : S4096x4096.Slices ![0, 0] S4096x2048
  slices_S4096x4096_S4096x2048_0_2048 : S4096x4096.Slices ![0, 2048] S4096x2048
  bcast_S_S4096x2048 : S_.BroadcastsInDim S4096x2048 (![] : Fin 0 → Fin S4096x2048.rank)
  dot_S4096x7168_S4096x7168_S4096x4096_1_1_0_0_n_n_wf : DotDims.WF S4096x7168 S4096x7168 S4096x4096 [1] [1] [0] [0] [] []
  dot_S4096x2048_S7168x2048_S4096x7168_1_1_0_0_n_n_wf : DotDims.WF S4096x2048 S7168x2048 S4096x7168 [1] [1] [0] [0] [] []

variable [Facts₀]

def dot_S4096x7168_S4096x7168_S4096x4096_1_1_0_0_n_n : DotDims S4096x7168 S4096x7168 S4096x4096 where
  lhsContracting := [1]
  rhsContracting := [1]
  lhsNonContracting := [0]
  rhsNonContracting := [0]
  lhsBatch := []
  rhsBatch := []
  wf := dot_S4096x7168_S4096x7168_S4096x4096_1_1_0_0_n_n_wf
def dot_S4096x2048_S7168x2048_S4096x7168_1_1_0_0_n_n : DotDims S4096x2048 S7168x2048 S4096x7168 where
  lhsContracting := [1]
  rhsContracting := [1]
  lhsNonContracting := [0]
  rhsNonContracting := [0]
  lhsBatch := []
  rhsBatch := []
  wf := dot_S4096x2048_S7168x2048_S4096x7168_1_1_0_0_n_n_wf

class Facts : Prop extends Facts₀ where

variable [Facts]
-- ==== Proof.KData.lean ====
/-
  The proof data of the two pallas_calls of the kernel program, at any float family.

  Region 0 (grid 4 × 28) multiplies a 1024 × 256 block of x by a 4096 × 256 block of the stacked up/gate weights
  and adds the product into a 1024 × 4096 accumulator kept in scratch: at the first point of each row of
  the grid (k = 0) the accumulator is reset to zero first, and at the last (k = 27) the left half of the accumulator
  (the gate), passed through x ↦ x · logistic x, times its right half (up), is stored as the output block. So after
  point n the scratch holds `acc0 n`: the block product added to zero when n ≡ 0 (mod 28) and to `acc0 (n - 1)`
  otherwise; and the output window's buffer, where it is written at all, holds the SwiGLU of `acc0 n`.
  Region 1 (grid 4 × 7) stores the product of a 1024 × 2048 block of h with a 1024 × 2048 block of the down weights.
-/
import proofs.«135507_j13950053777725_1_alg».proof.Proof.Gen.Kernel.Launch
import proofs.«135507_j13950053777725_1_alg».proof.Proof.Gen.Kernel.Skeleton
import proofs.«135507_j13950053777725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when a region is entered
variable (V : (c : Dev nD) → (b : Ref sig .tc) → Buf (Elt F) ((c : Thread nD τ).loc b))

/-! # Region 0 -/

/-- Window `w`'s block of its array at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x block and the weight block at point `t`, at their literal types. -/
abbrev xblk (c : Dev nD) (t : Fin cfg0.N) : Vec F S1024x256 .bf16 := iblk0 V c 0 t
abbrev wblk (c : Dev nD) (t : Fin cfg0.N) : Vec F S4096x256 .bf16 := iblk0 V c 1 t

/-- The accumulator after point `n`: the block product added to zero at the first point of a grid row,
    to what the point before left otherwise. -/
def acc0 (c : Dev nD) : (n : ℕ) → n < cfg0.N → Vec F S1024x4096 .f32
  | 0, hn => k0_pay2 (k0_pay1 (F := F)) (xblk V c ⟨0, hn⟩) (wblk V c ⟨0, hn⟩)
  | n + 1, hn => k0_pay2 (if (n + 1) % 28 = 0 then k0_pay1 (F := F) else acc0 c n (Nat.lt_of_succ_lt hn))
      (xblk V c ⟨n + 1, hn⟩) (wblk V c ⟨n + 1, hn⟩)

theorem acc0_reset (c : Dev nD) (t : Fin cfg0.N) (h : t.val % 28 = 0) :
    acc0 V c t.val t.isLt = k0_pay2 (k0_pay1 (F := F)) (xblk V c t) (wblk V c t) := by
  obtain ⟨n, hn⟩ := t
  cases n with
  | zero => rfl
  | succ n => show k0_pay2 (if (n + 1) % 28 = 0 then _ else _) _ _ = _; rw [if_pos h]

theorem acc0_step (c : Dev nD) (t : Fin cfg0.N) (h : ¬ t.val % 28 = 0) :
    acc0 V c t.val t.isLt = k0_pay2 (acc0 V c (t.val - 1) (Nat.lt_of_le_of_lt (Nat.sub_le _ _) t.isLt)) (xblk V c t) (wblk V c t) := by
  obtain ⟨n, hn⟩ := t
  cases n with
  | zero => exact absurd (Nat.zero_mod _) h
  | succ n => show k0_pay2 (if (n + 1) % 28 = 0 then _ else _) _ _ = _; rw [if_neg h]; rfl

/-- The scratch accumulator, whole. -/
abbrev scM0 : Memref sig .tc .vmem S1024x4096 .f32 := Memref.whole cc0_scratch0

/-- The invariant before point `n`: before the first, every scoped buffer the pipeline does not stage at anything;
    afterwards the same with the accumulator at `acc0 (n - 1)`. The generator register rides along. -/
def PhiS (c : Dev nD) : (n : ℕ) → n ≤ cfg0.N → sProp 𝕄
  | 0, _ => Pipeline.ΦA spec0 c
  | n + 1, hn => iprop(iprop(owns (c : Thread nD τ) scM0 fullShare (acc0 V c n hn)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))
    ∗ (∃ r, prngReg c r))

/-- `ΦA` of region 0 with the accumulator as a memref owned at some contents. -/
theorem PhiA0_eq (c : Dev nD) :
    (Pipeline.ΦA spec0 c : sProp 𝕄)
      = iprop(iprop((∃ d, owns (c : Thread nD τ) scM0 fullShare d)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))
    ∗ (∃ r, prngReg c r)) := by
  unfold Pipeline.ΦA; rw [scopedRest0_eq]; simp only [scM0, owns_whole]; try rfl

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (acc0 V c n hn)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))
    ∗ (∃ r, prngReg c r)) := rfl

theorem PhiS_pos (c : Dev nD) (n : ℕ) (h : n ≤ cfg0.N) (hz : n ≠ 0) :
    PhiS V c n h = iprop(iprop(owns (c : Thread nD τ) scM0 fullShare (acc0 V c (n - 1) (by omega))
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))
    ∗ (∃ r, prngReg c r)) := by
  cases n with
  | zero => exact absurd rfl hz
  | succ n => rfl

/-- Region 0's proof data: the arrays as the region finds them; after the body each input buffer at its block, the
    output buffer at the SwiGLU of the accumulator (read only where the body stores it); the invariant `PhiS`. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

theorem Phi0_castSucc (c : Dev nD) (t : Fin cfg0.N) :
    (dat0 V c).Φ t.castSucc = PhiS V c t.val (Nat.le_of_lt t.isLt) := by
  dsimp only [dat0]; simp only [Fin.coe_castSucc]

/-! # Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The h block and the down-weight block at point `t`, at their literal types. -/
abbrev hblk (c : Dev nD) (t : Fin cfg1.N) : Vec F S1024x2048 .bf16 := iblk1 V c 0 t
abbrev dblk (c : Dev nD) (t : Fin cfg1.N) : Vec F S1024x2048 .bf16 := iblk1 V c 1 t

/-- Region 1's proof data: each input buffer at its block, the output buffer at the blocks' product; the class
    invariant (nothing kept between points). -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (hblk V c t) (dblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (hblk V c t) (dblk V c t) := by dsimp only [dat1]

end Cert.Kernel.Two

end
-- ==== Proof.KBody0.lean ====
/-
  Region 0's body obligation: at every grid point the kernel body, run on the staging buffers holding the point's
  blocks and on the accumulator as the point before left it, leaves the accumulator at `acc0` of this point and,
  at the last point of a grid row, the output buffer at the SwiGLU of the accumulator.
-/
import proofs.«135507_j13950053777725_1_alg».proof.Proof.KData
import Idealize.ShloMosaic.Lib.Pipeline.Value

set_option maxRecDepth 16384

noncomputable section

namespace Cert.Kernel.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (Pipeline.UD sig nD τ) ℕ
variable (V : (c : Dev nD) → (b : Ref sig .tc) → Buf (Elt F) ((c : Thread nD τ).loc b))

/-- The first branch of the body is taken where the second grid coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 28 = 0 :=
  (by decide +kernel : ∀ t : Fin grid0.N, cond0_0 (grid0.coords t) ↔ t.val % 28 = 0)

/-- The second branch is taken where the second grid coordinate is the last of its row. -/
abbrev cond0_1 (i : grid0.Coords) : Prop := k0_cond2 i = 1#1
theorem hcond0_1 : ∀ t : Fin cfg0.N, cond0_1 (grid0.coords t) ↔ t.val % 28 = 27 :=
  (by decide +kernel : ∀ t : Fin grid0.N, cond0_1 (grid0.coords t) ↔ t.val % 28 = 27)

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point of a grid row the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point of a grid row it is live. -/
theorem liveAt0_2 : ∀ t : Fin cfg0.N, cond0_1 (grid0.coords t) → cfg0.idle 2 (grid0.coords t) = false := by decide +kernel

/-- An input window's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

private theorem hz2 : (![0, 0] : Fin 2 → Nat) = fun _ => 0 := by funext a; fin_cases a <;> rfl

/-- A list of writes whose last (head) is a store through the whole buffer covers the buffer. -/
private theorem cover_head_unit {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self .., View.mem_set_unit_zero h inb y⟩

set_option maxHeartbeats 1000000 in
/-- The body at the first point of a grid row (first branch taken, second not): the accumulator is reset to zero and
    takes the block product; the output buffer is not touched. -/
theorem run0_A (c : Dev nD) (i : grid0.Coords) (arg2 : Memref sig .tc .vmem S1024x256 .bf16) (harg2 : arg2.IsWhole)
    (arg3 : Memref sig .tc .vmem S4096x256 .bf16) (harg3 : arg3.IsWhole)
    (arg4 : Memref sig .tc .vmem S1024x2048 .bf16) (harg4 : arg4.IsWhole)
    (arg5 : Memref sig .tc .vmem S1024x4096 .f32) (harg5 : arg5.IsWhole)
    (hc0 : cond0_0 i) (hc1 : ¬cond0_1 i)
    (x0 : Vec F S1024x256 .bf16) (x1 : Vec F S4096x256 .bf16) (xi : Vec F S1024x2048 .bf16)
    (E : Set ℕ) (K : PUnit → sProp 𝕄) :
    iprop(owns (c : Thread nD τ) arg2 fullShare x0 ∗ owns (c : Thread nD τ) arg3 fullShare x1
        ∗ owns (c : Thread nD τ) arg4 fullShare xi ∗ (∃ d, owns (c : Thread nD τ) arg5 fullShare d)
        ∗ (iprop(owns (c : Thread nD τ) arg2 fullShare x0 ∗ owns (c : Thread nD τ) arg3 fullShare x1
            ∗ owns (c : Thread nD τ) arg4 fullShare xi ∗ owns (c : Thread nD τ) arg5 fullShare (k0_pay2 (k0_pay1 (F := F)) x0 x1)) -∗ K ⟨⟩))
      ⊢ wp frame (wpE (defs₀ (F := F)) Variants.none c none) E (cc0__up_gate_swiglu_kernel i arg2 harg2 arg3 harg3 arg4 harg4 arg5 harg5) K := by
  simp only [cc0__up_gate_swiglu_kernel_eq_skeleton]; unfold cc0__up_gate_swiglu_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1
  obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  -- the later whole-buffer store covers; the accumulator it added to was read back from the zero store
  rw [View.read_writes_eq_canon _ _ _ (cover_head_unit hz2 _ _ _),
    View.canon_cons_unit_zero hz2, View.readCov_unit_zero (S := S1024x4096) _ hz2]
  simp only [View.readAt_eq_ld, harg2.read_unread, harg3.read_unread,
    View.ld_unit_zero (S := S1024x256) hz2, View.ld_unit_zero (S := S4096x256) hz2]

set_option maxHeartbeats 1000000 in
/-- The body at a point inside a grid row (neither branch taken): the accumulator takes the block product added to
    what it held; the output buffer is not touched. -/
theorem run0_B (c : Dev nD) (i : grid0.Coords) (arg2 : Memref sig .tc .vmem S1024x256 .bf16) (harg2 : arg2.IsWhole)
    (arg3 : Memref sig .tc .vmem S4096x256 .bf16) (harg3 : arg3.IsWhole)
    (arg4 : Memref sig .tc .vmem S1024x2048 .bf16) (harg4 : arg4.IsWhole)
    (arg5 : Memref sig .tc .vmem S1024x4096 .f32) (harg5 : arg5.IsWhole)
    (hc0 : ¬cond0_0 i) (hc1 : ¬cond0_1 i)
    (x0 : Vec F S1024x256 .bf16) (x1 : Vec F S4096x256 .bf16) (xi : Vec F S1024x2048 .bf16) (s : Vec F S1024x4096 .f32)
    (E : Set ℕ) (K : PUnit → sProp 𝕄) :
    iprop(owns (c : Thread nD τ) arg2 fullShare x0 ∗ owns (c : Thread nD τ) arg3 fullShare x1
        ∗ owns (c : Thread nD τ) arg4 fullShare xi ∗ owns (c : Thread nD τ) arg5 fullShare s
        ∗ (iprop(owns (c : Thread nD τ) arg2 fullShare x0 ∗ owns (c : Thread nD τ) arg3 fullShare x1
            ∗ owns (c : Thread nD τ) arg4 fullShare xi ∗ owns (c : Thread nD τ) arg5 fullShare (k0_pay2 s x0 x1)) -∗ K ⟨⟩))
      ⊢ wp frame (wpE (defs₀ (F := F)) Variants.none c none) E (cc0__up_gate_swiglu_kernel i arg2 harg2 arg3 harg3 arg4 harg4 arg5 harg5) K := by
  simp only [cc0__up_gate_swiglu_kernel_eq_skeleton]; unfold cc0__up_gate_swiglu_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  -- one whole-buffer store: what is read back is its payload, over loads of the whole buffers
  rw [View.read_writes_eq_canon _ _ _ (cover_head_unit hz2 _ _ _),
    View.canon_unit_zero hz2]
  simp only [View.readAt_eq_ld, harg5.read_unread, harg2.read_unread, harg3.read_unread,
    View.ld_unit_zero (S := S1024x4096) hz2, View.ld_unit_zero (S := S1024x256) hz2, View.ld_unit_zero (S := S4096x256) hz2]

set_option maxHeartbeats 1000000 in
/-- The body at the last point of a grid row (second branch only): the accumulator takes the block product added to
    what it held, and the output buffer, whatever it held, takes the gated product of the accumulator's halves. -/
theorem run0_C (c : Dev nD) (i : grid0.Coords) (arg2 : Memref sig .tc .vmem S1024x256 .bf16) (harg2 : arg2.IsWhole)
    (arg3 : Memref sig .tc .vmem S4096x256 .bf16) (harg3 : arg3.IsWhole)
    (arg4 : Memref sig .tc .vmem S1024x2048 .bf16) (harg4 : arg4.IsWhole)
    (arg5 : Memref sig .tc .vmem S1024x4096 .f32) (harg5 : arg5.IsWhole)
    (hc0 : ¬cond0_0 i) (hc1 : cond0_1 i)
    (x0 : Vec F S1024x256 .bf16) (x1 : Vec F S4096x256 .bf16) (s : Vec F S1024x4096 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k0_pay3 (k0_pay2 s x0 x1)) ∗ owns (c : Thread nD τ) arg5 fullShare (k0_pay2 s x0 x1)) -∗ K ⟨⟩))
      ⊢ wp frame (wpE (defs₀ (F := F)) Variants.none c none) E (cc0__up_gate_swiglu_kernel i arg2 harg2 arg3 harg3 arg4 harg4 arg5 harg5) K := by
  simp only [cc0__up_gate_swiglu_kernel_eq_skeleton]; unfold cc0__up_gate_swiglu_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    -- one whole-buffer store of the payload over the accumulator as read back from its own store
    rw [View.read_writes_eq_canon _ _ _ (cover_head_unit hz2 _ _ _),
      View.canon_unit_zero hz2, View.readCov_unit_zero (S := S1024x4096) _ hz2]
    simp only [View.readAt_eq_ld, harg5.read_unread, harg2.read_unread, harg3.read_unread,
      View.ld_unit_zero (S := S1024x4096) hz2, View.ld_unit_zero (S := S1024x256) hz2, View.ld_unit_zero (S := S4096x256) hz2]
  iexists _; isplitr
  swap; · iexact HS
  ipureintro
  sl_unfold_words
  rw [View.read_writes_eq_canon _ _ _ (cover_head_unit hz2 _ _ _),
    View.canon_unit_zero hz2]
  simp only [View.readAt_eq_ld, harg5.read_unread, harg2.read_unread, harg3.read_unread,
    View.ld_unit_zero (S := S1024x4096) hz2, View.ld_unit_zero (S := S1024x256) hz2, View.ld_unit_zero (S := S4096x256) hz2]

/-- What the launch hands region 0 is the invariant before its first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulator's contents are forgotten. -/
theorem hout0 (c : Dev nD) : (dat0 V c).Φ (Fin.last cfg0.N) ⊢ (Pipeline.ΦA spec0 c : sProp 𝕄) := by
  have hN : cfg0.N = 112 := N_0
  rw [show (dat0 V c).Φ (Fin.last cfg0.N) = PhiS V c (Fin.last cfg0.N).val (Nat.le_of_lt_succ (Fin.last cfg0.N).isLt) from rfl,
    PhiS_pos V c _ _ (by rw [Fin.val_last]; omega), PhiA0_eq]
  iintro ⟨⟨HS, Hr⟩, Hg⟩
  isplitl [HS Hr]
  · isplitl [HS]
    · iexists _; iexact HS
    iexact Hr
  iexact Hg

/-- Each window's current staging memref at point `t`. -/
abbrev ms0_0 (t : Fin cfg0.N) : Memref sig .tc .vmem S1024x256 .bf16 := win0_0.stage (cfg0.slots t 0)
abbrev ms0_1 (t : Fin cfg0.N) : Memref sig .tc .vmem S4096x256 .bf16 := win0_1.stage (cfg0.slots t 1)
abbrev ms0_2 (t : Fin cfg0.N) : Memref sig .tc .vmem S1024x2048 .bf16 := win0_2.stage (cfg0.slots t 2)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input buffers hold the point's blocks; the position in the grid row says which branches
    run; the invariant hands over the accumulator at what the point before left (at anything before the first point)
    and takes it back at `acc0` of this point, by `acc0_reset` at the first point of a row and `acc0_step` elsewhere;
    the output buffer is handed back untouched except at the last point of a row, where it holds the payload of the
    accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 112 := lt_of_lt_of_eq t.isLt (show cfg0.N = 112 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 28 = 0
  · have h1 : ¬t.val % 28 = 27 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t hc1)]
    rw [acc0_reset V c t h0]
    by_cases hz : t.val = 0
    · rw [Phi0_castSucc V c t, PhiS_zero V c _ _ hz, PhiA0_eq]
      iintro ⟨⟨⟨HS, Hr⟩, Hg⟩, Ho, ⟨%d0, H0⟩, ⟨%d1, H1⟩, ⟨%d2, H2⟩⟩
      iapply (run0_A c (grid0.coords t) _ _ _ _ _ _ _ _ hc0 hc1 (xblk V c t) (wblk V c t) ((dat0 V c).before 2 t d2) Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [Phi0_castSucc V c t, PhiS_pos V c _ _ hz]
      iintro ⟨⟨⟨HS, Hr⟩, Hg⟩, Ho, ⟨%d0, H0⟩, ⟨%d1, H1⟩, ⟨%d2, H2⟩⟩
      iapply (run0_A c (grid0.coords t) _ _ _ _ _ _ _ _ hc0 hc1 (xblk V c t) (wblk V c t) ((dat0 V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun h => h0 (by rw [h])
    rw [acc0_step V c t h0]
    rw [Phi0_castSucc V c t, PhiS_pos V c _ _ hz]
    by_cases h1 : t.val % 28 = 27
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [acc0_step V c t h0]
      iintro ⟨⟨⟨HS, Hr⟩, Hg⟩, Ho, ⟨%d0, H0⟩, ⟨%d1, H1⟩, ⟨%d2, H2⟩⟩
      iapply (run0_C c (grid0.coords t) _ _ _ _ _ _ _ _ hc0 hc1 (xblk V c t) (wblk V c t)
        (acc0 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS, Hr⟩, Hg⟩, Ho, ⟨%d0, H0⟩, ⟨%d1, H1⟩, ⟨%d2, H2⟩⟩
      iapply (run0_B c (grid0.coords t) _ _ _ _ _ _ _ _ hc0 hc1 (xblk V c t) (wblk V c t) ((dat0 V c).before 2 t d2)
        (acc0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Two

end
-- ==== Proof.KBody1.lean ====
/-
  Region 1's body obligation: at every grid point the kernel body, run on the staging buffers holding the point's
  h block and down-weight block, leaves the output buffer at their product.
-/
import proofs.«135507_j13950053777725_1_alg».proof.Proof.KData
import Idealize.ShloMosaic.Lib.Pipeline.Value

set_option maxRecDepth 16384

noncomputable section

namespace Cert.Kernel.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (Pipeline.UD sig nD τ) ℕ
variable (V : (c : Dev nD) → (b : Ref sig .tc) → Buf (Elt F) ((c : Thread nD τ).loc b))

/-- The h window's current staging buffer holds the point's h block at every point, fetched there or not: where it
    is not fetched the block index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The down-weight window's current staging buffer holds the point's down-weight block at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The offsets of the whole-buffer rectangle are zero. -/
theorem off_zero : (![0, 0] : Fin 2 → Nat) = fun _ => 0 := by funext a; fin_cases a <;> rfl

/-- The whole-buffer rectangle of the output block. -/
abbrev rOut : Rect S1024x1024 := Rect.unit (s := S1024x1024) ![0, 0] S1024x1024.size inb_S1024x1024_S1024x1024_0_0

/-- One store through the whole-buffer rectangle covers the buffer. -/
theorem coverOut (p : Vec F S1024x1024 .f32) (y : S1024x1024.Idx) :
    ∃ pc ∈ ([⟨rOut, p⟩] : List (View.Piece (Elt F) S1024x1024 .f32)), y ∈ pc.1.set :=
  ⟨_, List.mem_singleton_self _, View.mem_set_unit_zero off_zero inb_S1024x1024_S1024x1024_0_0 y⟩

set_option maxHeartbeats 1000000 in
/-- The kernel body on whole staging memrefs, the inputs' at read contents `x0`, `x1` and the output's at anything,
    runs to the continuation holding the inputs' as they were and the output's at the product of the two. -/
theorem sound_kernel1 (c : Dev nD) (E : Set ℕ) (i : grid1.Coords)
    (arg2 : Memref sig .tc .vmem S1024x2048 .bf16) (harg2 : arg2.IsWhole)
    (arg3 : Memref sig .tc .vmem S1024x2048 .bf16) (harg3 : arg3.IsWhole)
    (arg4 : Memref sig .tc .vmem S1024x1024 .f32) (harg4 : arg4.IsWhole)
    (x0 : Vec F S1024x2048 .bf16) (x1 : Vec F S1024x2048 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay1 x0 x1)) -∗ K ⟨⟩))
      ⊢ wp frame (wpE (defs₀ (F := F)) Variants.none c none) E (cc1__down_proj_kernel i arg2 harg2 arg3 harg3 arg4 harg4) K := by
  simp only [cc1__down_proj_kernel_eq_skeleton]; unfold cc1__down_proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (coverOut _), View.canon_unit_zero off_zero,
    View.readAt_eq_ld, View.readAt_eq_ld, View.ld_unit_zero off_zero, View.ld_unit_zero off_zero]

/-- What the body is called with at point `t`: the invariant, the core's waits, and the three windows' current
    staging buffers, the inputs' at what the pipeline left there and the output's at anything, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the same with each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the kernel's triple applies; the invariant and
    the core's waits pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Two

end
-- ==== Proof.KRun.lean ====
/-
  The run of the kernel program's @main, at any float family: three roundings to bf16 on the host, then
  the two pallas_calls. Between two items every unscoped buffer of the core is held whole: at the launch contents,
  then after the host operations, then with region 0's arrays at what its write-backs leave (the hidden activation
  array is the only one it changes), then the same for region 1 (the result array). Every weakly fair execution
  terminates, the result array ends at region 1's folded write-backs and the three arguments end as launched.
-/
import proofs.«135507_j13950053777725_1_alg».proof.Proof.KBody0
import proofs.«135507_j13950053777725_1_alg».proof.Proof.KBody1
import proofs.«135507_j13950053777725_1_alg».proof.Proof.Gen.Kernel.Regions

set_option maxRecDepth 16384

noncomputable section

namespace Cert.Kernel.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => m (c, b)
/-- After the three host roundings: region 0's entry. -/
abbrev B1 : Dev nD → Valuation τ sig (Elt F) := fun c => StableHlo.after hostOps0 (B0 m c)
abbrev U1 : (c : Dev nD) → (b : Ref sig .tc) → Buf (Elt F) ((c : Thread nD τ).loc b) := fun c b => B1 m c b
/-- After region 0: its arrays at what its write-backs leave, every other buffer as entered. Region 1's entry. -/
def B2 (c : Dev nD) : Valuation τ sig (Elt F) :=
  Pipeline.withArrays spec0 c (B1 m c) fun w => (dat0 (U1 m) c).arrAt w cfg0.N
theorem B2_arr (c : Dev nD) (w : Fin cfg0.W) :
    B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev U2 : (c : Dev nD) → (b : Ref sig .tc) → Buf (Elt F) ((c : Thread nD τ).loc b) := fun c b => B2 m c b
theorem hF0 (c : Dev nD) (w : Fin cfg0.W) : (dat0 (U1 m) c).arrAt w cfg0.N = U2 m c (Pipeline.arrRef spec0 w) :=
  (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)

/-- After region 1: its arrays at what its write-backs leave, every other buffer as entered. -/
def B3 (c : Dev nD) : Valuation τ sig (Elt F) :=
  Pipeline.withArrays spec1 c (B2 m c) fun w => (dat1 (U2 m) c).arrAt w cfg1.N
theorem B3_arr (c : Dev nD) (w : Fin cfg1.W) :
    B3 m c (Proc.devRef .tc (Pipeline.arrRef spec1 w)) = (dat1 (U2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev U3 : (c : Dev nD) → (b : Ref sig .tc) → Buf (Elt F) ((c : Thread nD τ).loc b) := fun c b => B3 m c b
theorem hF1 (c : Dev nD) (w : Fin cfg1.W) : (dat1 (U2 m) c).arrAt w cfg1.N = U3 m c (Pipeline.arrRef spec1 w) :=
  (B3_arr m c w).symm
theorem hrest1 (c : Dev nD) : ∀ b, b ∉ Finset.univ.image (Pipeline.arrRef spec1) → U3 m c b = U2 m c b :=
  fun b hb => B3_of_ne m c b fun w e => hb (Finset.mem_image.mpr ⟨w, Finset.mem_univ _, e⟩)

/-! ## The arguments end as launched: no host operation and no region writes one -/

theorem B1_of (c : Dev nD) (r : Ref sig .tc) (h : r ∉ Gen.hostOps0_W) : B1 m c r = B0 m c r :=
  StableHlo.after_of_writes_sub hostOps0 _ Gen.hostOps0_writes h

theorem B3_main_arg0 (c : Dev nD) : B3 m c (Proc.devRef .tc main_arg0) = m ((c : Thread nD τ).loc main_arg0) :=
  (B3_of_ne m c main_arg0 (by decide)).trans <| (B2_of_ne m c main_arg0 (by decide)).trans <| (B1_of m c main_arg0 (by decide)).trans rfl
theorem B3_main_arg1 (c : Dev nD) : B3 m c (Proc.devRef .tc main_arg1) = m ((c : Thread nD τ).loc main_arg1) :=
  (B3_of_ne m c main_arg1 (by decide)).trans <| (B2_of_ne m c main_arg1 (by decide)).trans <| (B1_of m c main_arg1 (by decide)).trans rfl
theorem B3_main_arg2 (c : Dev nD) : B3 m c (Proc.devRef .tc main_arg2) = m ((c : Thread nD τ).loc main_arg2) :=
  (B3_of_ne m c main_arg2 (by decide)).trans <| (B2_of_ne m c main_arg2 (by decide)).trans <| (B1_of m c main_arg2 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (U1 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
/-- Region 0 over the thread state: entered from every unscoped buffer at `B1`, left at `B2`. Its arrays are split
    out of the unscoped buffers and put back at the exit contents; the generator register goes into the invariant and
    comes back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U1 m) c)
    unfold Pipeline.ΦA
    iintro ⟨Hp, -, Hr⟩
    isplitl [Hr]; · iexact Hr
    iexact Hp
  hout c := by
    rw [Pipeline.ownSems0_none]
    refine BIBase.Entails.trans (hout0 (U1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B2`, left at `B3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- The run: from any memory with zero counters every weakly fair execution of @main terminates, nothing faulting, and
    in every final state each unscoped buffer of every core holds the last boundary's contents `B3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- The same read at the result and at the arguments: the result array at region 1's folded write-backs, the
    arguments as launched. -/
theorem run_main : θ_run defs (onTc (τ := τ) (main (F := F))) ⟨m, fun _ => 0, ρ⟩ (fun r => ∀ c : Dev nD,
      r.2.mem ((c.tc : Thread nD τ).loc main_v4) = (dat1 (U2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v4 (by decide))).trans (B3_arr m c 2),
     (h c _ (mem_uc main_arg0 (by decide))).trans (B3_main_arg0 m c),
     (h c _ (mem_uc main_arg1 (by decide))).trans (B3_main_arg1 m c),
     (h c _ (mem_uc main_arg2 (by decide))).trans (B3_main_arg2 m c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_main m ρ)

end Cert.Kernel.Two

end
-- ==== Proof.KiData.lean ====
/-
  The proof data of the two pallas_calls of the idealized kernel program, at any float family.

  Region 0 (grid 4 × 28) multiplies a 1024 × 256 block of x by a 4096 × 256 block of the stacked up/gate weights
  and adds the product into a 1024 × 4096 accumulator kept in scratch: at the first point of each row of
  the grid (k = 0) the accumulator is reset to zero first, and at the last (k = 27) the left half of the accumulator
  (the gate), passed through x ↦ x · logistic x, times its right half (up), is stored as the output block. So after
  point n the scratch holds `acc0 n`: the block product added to zero when n ≡ 0 (mod 28) and to `acc0 (n - 1)`
  otherwise; and the output window's buffer, where it is written at all, holds the SwiGLU of `acc0 n`.
  Region 1 (grid 4 × 7) stores the product of a 1024 × 2048 block of h with a 1024 × 2048 block of the down weights.
-/
import proofs.«135507_j13950053777725_1_alg».proof.Proof.Gen.KernelIdeal.Launch
import proofs.«135507_j13950053777725_1_alg».proof.Proof.Gen.KernelIdeal.Skeleton
import proofs.«135507_j13950053777725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when a region is entered
variable (V : (c : Dev nD) → (b : Ref sig .tc) → Buf (Elt F) ((c : Thread nD τ).loc b))

/-! # Region 0 -/

/-- Window `w`'s block of its array at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x block and the weight block at point `t`, at their literal types. -/
abbrev xblk (c : Dev nD) (t : Fin cfg0.N) : Vec F S1024x256 .bf16 := iblk0 V c 0 t
abbrev wblk (c : Dev nD) (t : Fin cfg0.N) : Vec F S4096x256 .bf16 := iblk0 V c 1 t

/-- The accumulator after point `n`: the block product added to zero at the first point of a grid row,
    to what the point before left otherwise. -/
def acc0 (c : Dev nD) : (n : ℕ) → n < cfg0.N → Vec F S1024x4096 .f32
  | 0, hn => k0_pay2 (k0_pay1 (F := F)) (xblk V c ⟨0, hn⟩) (wblk V c ⟨0, hn⟩)
  | n + 1, hn => k0_pay2 (if (n + 1) % 28 = 0 then k0_pay1 (F := F) else acc0 c n (Nat.lt_of_succ_lt hn))
      (xblk V c ⟨n + 1, hn⟩) (wblk V c ⟨n + 1, hn⟩)

theorem acc0_reset (c : Dev nD) (t : Fin cfg0.N) (h : t.val % 28 = 0) :
    acc0 V c t.val t.isLt = k0_pay2 (k0_pay1 (F := F)) (xblk V c t) (wblk V c t) := by
  obtain ⟨n, hn⟩ := t
  cases n with
  | zero => rfl
  | succ n => show k0_pay2 (if (n + 1) % 28 = 0 then _ else _) _ _ = _; rw [if_pos h]

theorem acc0_step (c : Dev nD) (t : Fin cfg0.N) (h : ¬ t.val % 28 = 0) :
    acc0 V c t.val t.isLt = k0_pay2 (acc0 V c (t.val - 1) (Nat.lt_of_le_of_lt (Nat.sub_le _ _) t.isLt)) (xblk V c t) (wblk V c t) := by
  obtain ⟨n, hn⟩ := t
  cases n with
  | zero => exact absurd (Nat.zero_mod _) h
  | succ n => show k0_pay2 (if (n + 1) % 28 = 0 then _ else _) _ _ = _; rw [if_neg h]; rfl

/-- The scratch accumulator, whole. -/
abbrev scM0 : Memref sig .tc .vmem S1024x4096 .f32 := Memref.whole cc0_scratch0

/-- The invariant before point `n`: before the first, every scoped buffer the pipeline does not stage at anything;
    afterwards the same with the accumulator at `acc0 (n - 1)`. The generator register rides along. -/
def PhiS (c : Dev nD) : (n : ℕ) → n ≤ cfg0.N → sProp 𝕄
  | 0, _ => Pipeline.ΦA spec0 c
  | n + 1, hn => iprop(iprop(owns (c : Thread nD τ) scM0 fullShare (acc0 V c n hn)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))
    ∗ (∃ r, prngReg c r))

/-- `ΦA` of region 0 with the accumulator as a memref owned at some contents. -/
theorem PhiA0_eq (c : Dev nD) :
    (Pipeline.ΦA spec0 c : sProp 𝕄)
      = iprop(iprop((∃ d, owns (c : Thread nD τ) scM0 fullShare d)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))
    ∗ (∃ r, prngReg c r)) := by
  unfold Pipeline.ΦA; rw [scopedRest0_eq]; simp only [scM0, owns_whole]; try rfl

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (acc0 V c n hn)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))
    ∗ (∃ r, prngReg c r)) := rfl

theorem PhiS_pos (c : Dev nD) (n : ℕ) (h : n ≤ cfg0.N) (hz : n ≠ 0) :
    PhiS V c n h = iprop(iprop(owns (c : Thread nD τ) scM0 fullShare (acc0 V c (n - 1) (by omega))
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))
    ∗ (∃ r, prngReg c r)) := by
  cases n with
  | zero => exact absurd rfl hz
  | succ n => rfl

/-- Region 0's proof data: the arrays as the region finds them; after the body each input buffer at its block, the
    output buffer at the SwiGLU of the accumulator (read only where the body stores it); the invariant `PhiS`. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

theorem Phi0_castSucc (c : Dev nD) (t : Fin cfg0.N) :
    (dat0 V c).Φ t.castSucc = PhiS V c t.val (Nat.le_of_lt t.isLt) := by
  dsimp only [dat0]; simp only [Fin.coe_castSucc]

/-! # Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The h block and the down-weight block at point `t`, at their literal types. -/
abbrev hblk (c : Dev nD) (t : Fin cfg1.N) : Vec F S1024x2048 .bf16 := iblk1 V c 0 t
abbrev dblk (c : Dev nD) (t : Fin cfg1.N) : Vec F S1024x2048 .bf16 := iblk1 V c 1 t

/-- Region 1's proof data: each input buffer at its block, the output buffer at the blocks' product; the class
    invariant (nothing kept between points). -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (hblk V c t) (dblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (hblk V c t) (dblk V c t) := by dsimp only [dat1]

end Cert.KernelIdeal.Two

end
-- ==== Proof.KiBody0.lean ====
/-
  Region 0's body obligation: at every grid point the kernel body, run on the staging buffers holding the point's
  blocks and on the accumulator as the point before left it, leaves the accumulator at `acc0` of this point and,
  at the last point of a grid row, the output buffer at the SwiGLU of the accumulator.
-/
import proofs.«135507_j13950053777725_1_alg».proof.Proof.KiData
import Idealize.ShloMosaic.Lib.Pipeline.Value

set_option maxRecDepth 16384

noncomputable section

namespace Cert.KernelIdeal.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (Pipeline.UD sig nD τ) ℕ
variable (V : (c : Dev nD) → (b : Ref sig .tc) → Buf (Elt F) ((c : Thread nD τ).loc b))

/-- The first branch of the body is taken where the second grid coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 28 = 0 :=
  (by decide +kernel : ∀ t : Fin grid0.N, cond0_0 (grid0.coords t) ↔ t.val % 28 = 0)

/-- The second branch is taken where the second grid coordinate is the last of its row. -/
abbrev cond0_1 (i : grid0.Coords) : Prop := k0_cond2 i = 1#1
theorem hcond0_1 : ∀ t : Fin cfg0.N, cond0_1 (grid0.coords t) ↔ t.val % 28 = 27 :=
  (by decide +kernel : ∀ t : Fin grid0.N, cond0_1 (grid0.coords t) ↔ t.val % 28 = 27)

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point of a grid row the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point of a grid row it is live. -/
theorem liveAt0_2 : ∀ t : Fin cfg0.N, cond0_1 (grid0.coords t) → cfg0.idle 2 (grid0.coords t) = false := by decide +kernel

/-- An input window's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

private theorem hz2 : (![0, 0] : Fin 2 → Nat) = fun _ => 0 := by funext a; fin_cases a <;> rfl

/-- A list of writes whose last (head) is a store through the whole buffer covers the buffer. -/
private theorem cover_head_unit {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self .., View.mem_set_unit_zero h inb y⟩

set_option maxHeartbeats 1000000 in
/-- The body at the first point of a grid row (first branch taken, second not): the accumulator is reset to zero and
    takes the block product; the output buffer is not touched. -/
theorem run0_A (c : Dev nD) (i : grid0.Coords) (arg2 : Memref sig .tc .vmem S1024x256 .bf16) (harg2 : arg2.IsWhole)
    (arg3 : Memref sig .tc .vmem S4096x256 .bf16) (harg3 : arg3.IsWhole)
    (arg4 : Memref sig .tc .vmem S1024x2048 .bf16) (harg4 : arg4.IsWhole)
    (arg5 : Memref sig .tc .vmem S1024x4096 .f32) (harg5 : arg5.IsWhole)
    (hc0 : cond0_0 i) (hc1 : ¬cond0_1 i)
    (x0 : Vec F S1024x256 .bf16) (x1 : Vec F S4096x256 .bf16) (xi : Vec F S1024x2048 .bf16)
    (E : Set ℕ) (K : PUnit → sProp 𝕄) :
    iprop(owns (c : Thread nD τ) arg2 fullShare x0 ∗ owns (c : Thread nD τ) arg3 fullShare x1
        ∗ owns (c : Thread nD τ) arg4 fullShare xi ∗ (∃ d, owns (c : Thread nD τ) arg5 fullShare d)
        ∗ (iprop(owns (c : Thread nD τ) arg2 fullShare x0 ∗ owns (c : Thread nD τ) arg3 fullShare x1
            ∗ owns (c : Thread nD τ) arg4 fullShare xi ∗ owns (c : Thread nD τ) arg5 fullShare (k0_pay2 (k0_pay1 (F := F)) x0 x1)) -∗ K ⟨⟩))
      ⊢ wp frame (wpE (defs₀ (F := F)) Variants.none c none) E (cc0__up_gate_swiglu_kernel i arg2 harg2 arg3 harg3 arg4 harg4 arg5 harg5) K := by
  simp only [cc0__up_gate_swiglu_kernel_eq_skeleton]; unfold cc0__up_gate_swiglu_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1
  obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  -- the later whole-buffer store covers; the accumulator it added to was read back from the zero store
  rw [View.read_writes_eq_canon _ _ _ (cover_head_unit hz2 _ _ _),
    View.canon_cons_unit_zero hz2, View.readCov_unit_zero (S := S1024x4096) _ hz2]
  simp only [View.readAt_eq_ld, harg2.read_unread, harg3.read_unread,
    View.ld_unit_zero (S := S1024x256) hz2, View.ld_unit_zero (S := S4096x256) hz2]

set_option maxHeartbeats 1000000 in
/-- The body at a point inside a grid row (neither branch taken): the accumulator takes the block product added to
    what it held; the output buffer is not touched. -/
theorem run0_B (c : Dev nD) (i : grid0.Coords) (arg2 : Memref sig .tc .vmem S1024x256 .bf16) (harg2 : arg2.IsWhole)
    (arg3 : Memref sig .tc .vmem S4096x256 .bf16) (harg3 : arg3.IsWhole)
    (arg4 : Memref sig .tc .vmem S1024x2048 .bf16) (harg4 : arg4.IsWhole)
    (arg5 : Memref sig .tc .vmem S1024x4096 .f32) (harg5 : arg5.IsWhole)
    (hc0 : ¬cond0_0 i) (hc1 : ¬cond0_1 i)
    (x0 : Vec F S1024x256 .bf16) (x1 : Vec F S4096x256 .bf16) (xi : Vec F S1024x2048 .bf16) (s : Vec F S1024x4096 .f32)
    (E : Set ℕ) (K : PUnit → sProp 𝕄) :
    iprop(owns (c : Thread nD τ) arg2 fullShare x0 ∗ owns (c : Thread nD τ) arg3 fullShare x1
        ∗ owns (c : Thread nD τ) arg4 fullShare xi ∗ owns (c : Thread nD τ) arg5 fullShare s
        ∗ (iprop(owns (c : Thread nD τ) arg2 fullShare x0 ∗ owns (c : Thread nD τ) arg3 fullShare x1
            ∗ owns (c : Thread nD τ) arg4 fullShare xi ∗ owns (c : Thread nD τ) arg5 fullShare (k0_pay2 s x0 x1)) -∗ K ⟨⟩))
      ⊢ wp frame (wpE (defs₀ (F := F)) Variants.none c none) E (cc0__up_gate_swiglu_kernel i arg2 harg2 arg3 harg3 arg4 harg4 arg5 harg5) K := by
  simp only [cc0__up_gate_swiglu_kernel_eq_skeleton]; unfold cc0__up_gate_swiglu_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  -- one whole-buffer store: what is read back is its payload, over loads of the whole buffers
  rw [View.read_writes_eq_canon _ _ _ (cover_head_unit hz2 _ _ _),
    View.canon_unit_zero hz2]
  simp only [View.readAt_eq_ld, harg5.read_unread, harg2.read_unread, harg3.read_unread,
    View.ld_unit_zero (S := S1024x4096) hz2, View.ld_unit_zero (S := S1024x256) hz2, View.ld_unit_zero (S := S4096x256) hz2]

set_option maxHeartbeats 1000000 in
/-- The body at the last point of a grid row (second branch only): the accumulator takes the block product added to
    what it held, and the output buffer, whatever it held, takes the gated product of the accumulator's halves. -/
theorem run0_C (c : Dev nD) (i : grid0.Coords) (arg2 : Memref sig .tc .vmem S1024x256 .bf16) (harg2 : arg2.IsWhole)
    (arg3 : Memref sig .tc .vmem S4096x256 .bf16) (harg3 : arg3.IsWhole)
    (arg4 : Memref sig .tc .vmem S1024x2048 .bf16) (harg4 : arg4.IsWhole)
    (arg5 : Memref sig .tc .vmem S1024x4096 .f32) (harg5 : arg5.IsWhole)
    (hc0 : ¬cond0_0 i) (hc1 : cond0_1 i)
    (x0 : Vec F S1024x256 .bf16) (x1 : Vec F S4096x256 .bf16) (s : Vec F S1024x4096 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k0_pay3 (k0_pay2 s x0 x1)) ∗ owns (c : Thread nD τ) arg5 fullShare (k0_pay2 s x0 x1)) -∗ K ⟨⟩))
      ⊢ wp frame (wpE (defs₀ (F := F)) Variants.none c none) E (cc0__up_gate_swiglu_kernel i arg2 harg2 arg3 harg3 arg4 harg4 arg5 harg5) K := by
  simp only [cc0__up_gate_swiglu_kernel_eq_skeleton]; unfold cc0__up_gate_swiglu_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    -- one whole-buffer store of the payload over the accumulator as read back from its own store
    rw [View.read_writes_eq_canon _ _ _ (cover_head_unit hz2 _ _ _),
      View.canon_unit_zero hz2, View.readCov_unit_zero (S := S1024x4096) _ hz2]
    simp only [View.readAt_eq_ld, harg5.read_unread, harg2.read_unread, harg3.read_unread,
      View.ld_unit_zero (S := S1024x4096) hz2, View.ld_unit_zero (S := S1024x256) hz2, View.ld_unit_zero (S := S4096x256) hz2]
  iexists _; isplitr
  swap; · iexact HS
  ipureintro
  sl_unfold_words
  rw [View.read_writes_eq_canon _ _ _ (cover_head_unit hz2 _ _ _),
    View.canon_unit_zero hz2]
  simp only [View.readAt_eq_ld, harg5.read_unread, harg2.read_unread, harg3.read_unread,
    View.ld_unit_zero (S := S1024x4096) hz2, View.ld_unit_zero (S := S1024x256) hz2, View.ld_unit_zero (S := S4096x256) hz2]

/-- What the launch hands region 0 is the invariant before its first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulator's contents are forgotten. -/
theorem hout0 (c : Dev nD) : (dat0 V c).Φ (Fin.last cfg0.N) ⊢ (Pipeline.ΦA spec0 c : sProp 𝕄) := by
  have hN : cfg0.N = 112 := N_0
  rw [show (dat0 V c).Φ (Fin.last cfg0.N) = PhiS V c (Fin.last cfg0.N).val (Nat.le_of_lt_succ (Fin.last cfg0.N).isLt) from rfl,
    PhiS_pos V c _ _ (by rw [Fin.val_last]; omega), PhiA0_eq]
  iintro ⟨⟨HS, Hr⟩, Hg⟩
  isplitl [HS Hr]
  · isplitl [HS]
    · iexists _; iexact HS
    iexact Hr
  iexact Hg

/-- Each window's current staging memref at point `t`. -/
abbrev ms0_0 (t : Fin cfg0.N) : Memref sig .tc .vmem S1024x256 .bf16 := win0_0.stage (cfg0.slots t 0)
abbrev ms0_1 (t : Fin cfg0.N) : Memref sig .tc .vmem S4096x256 .bf16 := win0_1.stage (cfg0.slots t 1)
abbrev ms0_2 (t : Fin cfg0.N) : Memref sig .tc .vmem S1024x2048 .bf16 := win0_2.stage (cfg0.slots t 2)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input buffers hold the point's blocks; the position in the grid row says which branches
    run; the invariant hands over the accumulator at what the point before left (at anything before the first point)
    and takes it back at `acc0` of this point, by `acc0_reset` at the first point of a row and `acc0_step` elsewhere;
    the output buffer is handed back untouched except at the last point of a row, where it holds the payload of the
    accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 112 := lt_of_lt_of_eq t.isLt (show cfg0.N = 112 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 28 = 0
  · have h1 : ¬t.val % 28 = 27 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t hc1)]
    rw [acc0_reset V c t h0]
    by_cases hz : t.val = 0
    · rw [Phi0_castSucc V c t, PhiS_zero V c _ _ hz, PhiA0_eq]
      iintro ⟨⟨⟨HS, Hr⟩, Hg⟩, Ho, ⟨%d0, H0⟩, ⟨%d1, H1⟩, ⟨%d2, H2⟩⟩
      iapply (run0_A c (grid0.coords t) _ _ _ _ _ _ _ _ hc0 hc1 (xblk V c t) (wblk V c t) ((dat0 V c).before 2 t d2) Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [Phi0_castSucc V c t, PhiS_pos V c _ _ hz]
      iintro ⟨⟨⟨HS, Hr⟩, Hg⟩, Ho, ⟨%d0, H0⟩, ⟨%d1, H1⟩, ⟨%d2, H2⟩⟩
      iapply (run0_A c (grid0.coords t) _ _ _ _ _ _ _ _ hc0 hc1 (xblk V c t) (wblk V c t) ((dat0 V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun h => h0 (by rw [h])
    rw [acc0_step V c t h0]
    rw [Phi0_castSucc V c t, PhiS_pos V c _ _ hz]
    by_cases h1 : t.val % 28 = 27
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [acc0_step V c t h0]
      iintro ⟨⟨⟨HS, Hr⟩, Hg⟩, Ho, ⟨%d0, H0⟩, ⟨%d1, H1⟩, ⟨%d2, H2⟩⟩
      iapply (run0_C c (grid0.coords t) _ _ _ _ _ _ _ _ hc0 hc1 (xblk V c t) (wblk V c t)
        (acc0 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS, Hr⟩, Hg⟩, Ho, ⟨%d0, H0⟩, ⟨%d1, H1⟩, ⟨%d2, H2⟩⟩
      iapply (run0_B c (grid0.coords t) _ _ _ _ _ _ _ _ hc0 hc1 (xblk V c t) (wblk V c t) ((dat0 V c).before 2 t d2)
        (acc0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Two

end
-- ==== Proof.KiBody1.lean ====
/-
  Region 1's body obligation: at every grid point the kernel body, run on the staging buffers holding the point's
  h block and down-weight block, leaves the output buffer at their product.
-/
import proofs.«135507_j13950053777725_1_alg».proof.Proof.KiData
import Idealize.ShloMosaic.Lib.Pipeline.Value

set_option maxRecDepth 16384

noncomputable section

namespace Cert.KernelIdeal.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (Pipeline.UD sig nD τ) ℕ
variable (V : (c : Dev nD) → (b : Ref sig .tc) → Buf (Elt F) ((c : Thread nD τ).loc b))

/-- The h window's current staging buffer holds the point's h block at every point, fetched there or not: where it
    is not fetched the block index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The down-weight window's current staging buffer holds the point's down-weight block at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The offsets of the whole-buffer rectangle are zero. -/
theorem off_zero : (![0, 0] : Fin 2 → Nat) = fun _ => 0 := by funext a; fin_cases a <;> rfl

/-- The whole-buffer rectangle of the output block. -/
abbrev rOut : Rect S1024x1024 := Rect.unit (s := S1024x1024) ![0, 0] S1024x1024.size inb_S1024x1024_S1024x1024_0_0

/-- One store through the whole-buffer rectangle covers the buffer. -/
theorem coverOut (p : Vec F S1024x1024 .f32) (y : S1024x1024.Idx) :
    ∃ pc ∈ ([⟨rOut, p⟩] : List (View.Piece (Elt F) S1024x1024 .f32)), y ∈ pc.1.set :=
  ⟨_, List.mem_singleton_self _, View.mem_set_unit_zero off_zero inb_S1024x1024_S1024x1024_0_0 y⟩

set_option maxHeartbeats 1000000 in
/-- The kernel body on whole staging memrefs, the inputs' at read contents `x0`, `x1` and the output's at anything,
    runs to the continuation holding the inputs' as they were and the output's at the product of the two. -/
theorem sound_kernel1 (c : Dev nD) (E : Set ℕ) (i : grid1.Coords)
    (arg2 : Memref sig .tc .vmem S1024x2048 .bf16) (harg2 : arg2.IsWhole)
    (arg3 : Memref sig .tc .vmem S1024x2048 .bf16) (harg3 : arg3.IsWhole)
    (arg4 : Memref sig .tc .vmem S1024x1024 .f32) (harg4 : arg4.IsWhole)
    (x0 : Vec F S1024x2048 .bf16) (x1 : Vec F S1024x2048 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay1 x0 x1)) -∗ K ⟨⟩))
      ⊢ wp frame (wpE (defs₀ (F := F)) Variants.none c none) E (cc1__down_proj_kernel i arg2 harg2 arg3 harg3 arg4 harg4) K := by
  simp only [cc1__down_proj_kernel_eq_skeleton]; unfold cc1__down_proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (coverOut _), View.canon_unit_zero off_zero,
    View.readAt_eq_ld, View.readAt_eq_ld, View.ld_unit_zero off_zero, View.ld_unit_zero off_zero]

/-- What the body is called with at point `t`: the invariant, the core's waits, and the three windows' current
    staging buffers, the inputs' at what the pipeline left there and the output's at anything, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the same with each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the kernel's triple applies; the invariant and
    the core's waits pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Two

end
-- ==== Proof.KiRun.lean ====
/-
  The run of the idealized kernel program's @main, at any float family: three roundings to bf16 on the host, then
  the two pallas_calls. Between two items every unscoped buffer of the core is held whole: at the launch contents,
  then after the host operations, then with region 0's arrays at what its write-backs leave (the hidden activation
  array is the only one it changes), then the same for region 1 (the result array). Every weakly fair execution
  terminates, the result array ends at region 1's folded write-backs and the three arguments end as launched.
-/
import proofs.«135507_j13950053777725_1_alg».proof.Proof.KiBody0
import proofs.«135507_j13950053777725_1_alg».proof.Proof.KiBody1
import proofs.«135507_j13950053777725_1_alg».proof.Proof.Gen.KernelIdeal.Regions

set_option maxRecDepth 16384

noncomputable section

namespace Cert.KernelIdeal.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => m (c, b)
/-- After the three host roundings: region 0's entry. -/
abbrev B1 : Dev nD → Valuation τ sig (Elt F) := fun c => StableHlo.after hostOps0 (B0 m c)
abbrev U1 : (c : Dev nD) → (b : Ref sig .tc) → Buf (Elt F) ((c : Thread nD τ).loc b) := fun c b => B1 m c b
/-- After region 0: its arrays at what its write-backs leave, every other buffer as entered. Region 1's entry. -/
def B2 (c : Dev nD) : Valuation τ sig (Elt F) :=
  Pipeline.withArrays spec0 c (B1 m c) fun w => (dat0 (U1 m) c).arrAt w cfg0.N
theorem B2_arr (c : Dev nD) (w : Fin cfg0.W) :
    B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev U2 : (c : Dev nD) → (b : Ref sig .tc) → Buf (Elt F) ((c : Thread nD τ).loc b) := fun c b => B2 m c b
theorem hF0 (c : Dev nD) (w : Fin cfg0.W) : (dat0 (U1 m) c).arrAt w cfg0.N = U2 m c (Pipeline.arrRef spec0 w) :=
  (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)

/-- After region 1: its arrays at what its write-backs leave, every other buffer as entered. -/
def B3 (c : Dev nD) : Valuation τ sig (Elt F) :=
  Pipeline.withArrays spec1 c (B2 m c) fun w => (dat1 (U2 m) c).arrAt w cfg1.N
theorem B3_arr (c : Dev nD) (w : Fin cfg1.W) :
    B3 m c (Proc.devRef .tc (Pipeline.arrRef spec1 w)) = (dat1 (U2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev U3 : (c : Dev nD) → (b : Ref sig .tc) → Buf (Elt F) ((c : Thread nD τ).loc b) := fun c b => B3 m c b
theorem hF1 (c : Dev nD) (w : Fin cfg1.W) : (dat1 (U2 m) c).arrAt w cfg1.N = U3 m c (Pipeline.arrRef spec1 w) :=
  (B3_arr m c w).symm
theorem hrest1 (c : Dev nD) : ∀ b, b ∉ Finset.univ.image (Pipeline.arrRef spec1) → U3 m c b = U2 m c b :=
  fun b hb => B3_of_ne m c b fun w e => hb (Finset.mem_image.mpr ⟨w, Finset.mem_univ _, e⟩)

/-! ## The arguments end as launched: no host operation and no region writes one -/

theorem B1_of (c : Dev nD) (r : Ref sig .tc) (h : r ∉ Gen.hostOps0_W) : B1 m c r = B0 m c r :=
  StableHlo.after_of_writes_sub hostOps0 _ Gen.hostOps0_writes h

theorem B3_main_arg0 (c : Dev nD) : B3 m c (Proc.devRef .tc main_arg0) = m ((c : Thread nD τ).loc main_arg0) :=
  (B3_of_ne m c main_arg0 (by decide)).trans <| (B2_of_ne m c main_arg0 (by decide)).trans <| (B1_of m c main_arg0 (by decide)).trans rfl
theorem B3_main_arg1 (c : Dev nD) : B3 m c (Proc.devRef .tc main_arg1) = m ((c : Thread nD τ).loc main_arg1) :=
  (B3_of_ne m c main_arg1 (by decide)).trans <| (B2_of_ne m c main_arg1 (by decide)).trans <| (B1_of m c main_arg1 (by decide)).trans rfl
theorem B3_main_arg2 (c : Dev nD) : B3 m c (Proc.devRef .tc main_arg2) = m ((c : Thread nD τ).loc main_arg2) :=
  (B3_of_ne m c main_arg2 (by decide)).trans <| (B2_of_ne m c main_arg2 (by decide)).trans <| (B1_of m c main_arg2 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (U1 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
/-- Region 0 over the thread state: entered from every unscoped buffer at `B1`, left at `B2`. Its arrays are split
    out of the unscoped buffers and put back at the exit contents; the generator register goes into the invariant and
    comes back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U1 m) c)
    unfold Pipeline.ΦA
    iintro ⟨Hp, -, Hr⟩
    isplitl [Hr]; · iexact Hr
    iexact Hp
  hout c := by
    rw [Pipeline.ownSems0_none]
    refine BIBase.Entails.trans (hout0 (U1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B2`, left at `B3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- The run: from any memory with zero counters every weakly fair execution of @main terminates, nothing faulting, and
    in every final state each unscoped buffer of every core holds the last boundary's contents `B3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- The same read at the result and at the arguments: the result array at region 1's folded write-backs, the
    arguments as launched. -/
theorem run_main : θ_run defs (onTc (τ := τ) (main (F := F))) ⟨m, fun _ => 0, ρ⟩ (fun r => ∀ c : Dev nD,
      r.2.mem ((c.tc : Thread nD τ).loc main_v4) = (dat1 (U2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v4 (by decide))).trans (B3_arr m c 2),
     (h c _ (mem_uc main_arg0 (by decide))).trans (B3_main_arg0 m c),
     (h c _ (mem_uc main_arg1 (by decide))).trans (B3_main_arg1 m c),
     (h c _ (mem_uc main_arg2 (by decide))).trans (B3_main_arg2 m c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_main m ρ)

end Cert.KernelIdeal.Two

end
-- ==== Proof.Spec.lean ====
/-
  The mathematics of the two programs, over the extended reals, index by index.

  With x, w : 4096 × 7168 and d : 7168 × 2048, both programs compute
    ug[r, n]  = Σ_{k < 7168} x[r, k] · w[n, k]                                (n < 4096)
    h[r, e]   = (ug[r, e] · logistic ug[r, e]) · ug[r, 2048 + e]              (e < 2048)
    out[r, j] = Σ_{e < 2048} h[r, e] · d[j, e]                                (j < 7168).
  The kernel forms each ug[r, n] as a sum over 28 blocks of 256 consecutive k; the two arrangements of the sum
  agree in any commutative monoid, so no finiteness of the entries is needed.
-/
import Idealize.ShloMosaic.PureOps.Ideal
import Idealize.ShloMosaic.Lib.ValueIdx

noncomputable section

namespace Cert.Spec

open Idealize.ShloMosaic Idealize.ShloMosaic.ValueIdx

abbrev SX : Shape := ⟨2, ![4096, 7168]⟩
abbrev SD : Shape := ⟨2, ![7168, 2048]⟩
abbrev SH : Shape := ⟨2, ![4096, 2048]⟩

/-- Entry (r, n) of x · wᵀ. -/
def ug (x w : SX.Idx → EReal) (r n : Fin 4096) : EReal := ∑ k : Fin 7168, x (ix2 r k) * w (ix2 n k)

/-- x ↦ x · logistic x, then times the partner. -/
def swiglu (g u : EReal) : EReal := (g * Ideal.logistic g) * u

/-- Entry (r, e) of the hidden activation. -/
def hEntry (x w : SX.Idx → EReal) (r : Fin 4096) (e : Fin 2048) : EReal :=
  swiglu (ug x w r ⟨e.val, by omega⟩) (ug x w r ⟨2048 + e.val, by omega⟩)

/-- The hidden activation as an array. -/
def Hval (x w : SX.Idx → EReal) : SH.Idx → EReal := fun i => hEntry x w ⟨(i 0).val, idx2_lt0 i⟩ ⟨(i 1).val, idx2_lt1 i⟩

/-- Entry (r, j) of h · dᵀ. -/
def oEntry (h : SH.Idx → EReal) (d : SD.Idx → EReal) (r : Fin 4096) (j : Fin 7168) : EReal :=
  ∑ e : Fin 2048, h (ix2 r e) * d (ix2 j e)

/-- The result as an array. -/
def Oval (h : SH.Idx → EReal) (d : SD.Idx → EReal) : SX.Idx → EReal :=
  fun i => oEntry h d ⟨(i 0).val, idx2_lt0 i⟩ ⟨(i 1).val, idx2_lt1 i⟩

end Cert.Spec

end
-- ==== Proof.Blocks.lean ====
/-
  Regrouping a sum over 7168 = 28 · 256 consecutive indices into 28 blocks of 256, in any commutative monoid
  (so in the extended reals, where addition is commutative and associative even at the infinities).
-/
import Mathlib.Algebra.BigOperators.Fin
import Mathlib.Algebra.BigOperators.Group.Finset.Basic
import Mathlib.Logic.Equiv.Fin.Basic

namespace Cert.Spec

/-- A sum over 7168 = 28 · 256 indices is the sum over the 28 blocks of the sums within a block. -/
theorem sum_blocks {M : Type*} [AddCommMonoid M] (f : Fin 7168 → M) :
    ∑ k : Fin 7168, f k = ∑ b : Fin 28, ∑ j : Fin 256, f ⟨b.val * 256 + j.val, by omega⟩ := by
  -- (b, j) ↦ 256 · b + j is a bijection of the pairs onto the 7168 indices; a sum over pairs is an iterated sum
  have h : (28 * 256 : ℕ) = 7168 := rfl
  rw [← Equiv.sum_comp ((finProdFinEquiv (m := 28) (n := 256)).trans (finCongr h)) f, Fintype.sum_prod_type]
  refine Finset.sum_congr rfl fun b _ => Finset.sum_congr rfl fun j _ => ?_
  congr 1
  apply Fin.ext
  show j.val + 256 * b.val = b.val * 256 + j.val
  omega

end Cert.Spec
-- ==== Proof.KiVal0.lean ====
/-
  What region 0 leaves in its output array, at the extended reals: entry (r, e) is the SwiGLU of row r of x against
  rows e and 2048 + e of the stacked weights, each a sum over all 7168 columns, collected 256 at a time.
-/
import proofs.«135507_j13950053777725_1_alg».proof.Proof.KiData
import proofs.«135507_j13950053777725_1_alg».proof.Proof.Spec
import proofs.«135507_j13950053777725_1_alg».proof.Proof.Blocks
import Idealize.ShloMosaic.Lib.Pipeline.Value
import Idealize.ShloMosaic.Lib.ValueIdx
import Idealize.ShloMosaic.PureOps.Ideal.Laws
import Mathlib.Algebra.BigOperators.Fin
import Mathlib.Algebra.BigOperators.Group.Finset.Basic

set_option maxRecDepth 16384

noncomputable section

namespace Cert.KernelIdeal.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## The payloads at an index

The block product contracts the second axis of both blocks: entry (p, n) is the sum over the 256 columns j of
x[p, j] · w[n, j]. -/

theorem lhs_mm_0 (i : S1024x4096.Idx) (q : dot_S1024x256_S4096x256_S1024x4096_1_1_0_0_n_n.contr.Idx) :
    (dot_S1024x256_S4096x256_S1024x4096_1_1_0_0_n_n.lhsIdx i q 0).val = (i 0).val := by
  unfold DotDims.lhsIdx
  rw [dif_neg (show ¬(0 : Fin S1024x256.rank) ∈ dot_S1024x256_S4096x256_S1024x4096_1_1_0_0_n_n.lhsBatch by decide), dif_pos (show (0 : Fin S1024x256.rank) ∈ dot_S1024x256_S4096x256_S1024x4096_1_1_0_0_n_n.lhsNonContracting by decide)]
  rfl
theorem lhs_mm_1 (i : S1024x4096.Idx) (q : dot_S1024x256_S4096x256_S1024x4096_1_1_0_0_n_n.contr.Idx) :
    (dot_S1024x256_S4096x256_S1024x4096_1_1_0_0_n_n.lhsIdx i q 1).val = (q ⟨0, by decide⟩).val :=
  dot_S1024x256_S4096x256_S1024x4096_1_1_0_0_n_n.lhsIdx_val_of_single rfl i q
theorem rhs_mm_0 (i : S1024x4096.Idx) (q : dot_S1024x256_S4096x256_S1024x4096_1_1_0_0_n_n.contr.Idx) :
    (dot_S1024x256_S4096x256_S1024x4096_1_1_0_0_n_n.rhsIdx i q 0).val = (i 1).val := by
  unfold DotDims.rhsIdx
  rw [dif_neg (show ¬(0 : Fin S4096x256.rank) ∈ dot_S1024x256_S4096x256_S1024x4096_1_1_0_0_n_n.rhsBatch by decide), dif_pos (show (0 : Fin S4096x256.rank) ∈ dot_S1024x256_S4096x256_S1024x4096_1_1_0_0_n_n.rhsNonContracting by decide)]
  rfl
theorem rhs_mm_1 (i : S1024x4096.Idx) (q : dot_S1024x256_S4096x256_S1024x4096_1_1_0_0_n_n.contr.Idx) :
    (dot_S1024x256_S4096x256_S1024x4096_1_1_0_0_n_n.rhsIdx i q 1).val = (q ⟨0, by decide⟩).val :=
  dot_S1024x256_S4096x256_S1024x4096_1_1_0_0_n_n.rhsIdx_val_of_single rfl i q

/-- The block product into a zero accumulator, at (p, n): the sum over the block's 256 columns. -/
theorem mm_apply (x0 : FVec Ideal S1024x256 .bf16) (w0 : FVec Ideal S4096x256 .bf16) (p : Fin 1024) (n : Fin 4096) :
    matmul dot_S1024x256_S4096x256_S1024x4096_1_1_0_0_n_n none x0 w0 (constant S1024x4096 .f32 0x00000000#32) (ix2 p n)
      = ∑ j : Fin 256, x0 (ix2 p j) * w0 (ix2 n j) := by
  show FloatOps.matmul dot_S1024x256_S4096x256_S1024x4096_1_1_0_0_n_n none x0 w0 (constant S1024x4096 .f32 0x00000000#32) (ix2 p n) = _
  rw [Ideal.matmul_constant_zero_apply, ← Equiv.sum_comp (ValueIdx.contrEquiv1 dot_S1024x256_S4096x256_S1024x4096_1_1_0_0_n_n 256 rfl rfl).symm]
  refine Finset.sum_congr rfl fun k _ => ?_
  have hk := ValueIdx.contrEquiv1_symm_val dot_S1024x256_S4096x256_S1024x4096_1_1_0_0_n_n 256 rfl rfl k
  have el : dot_S1024x256_S4096x256_S1024x4096_1_1_0_0_n_n.lhsIdx (ix2 p n) ((ValueIdx.contrEquiv1 dot_S1024x256_S4096x256_S1024x4096_1_1_0_0_n_n 256 rfl rfl).symm k) = ix2 p k := funext fun a => Fin.ext (by
    match a with
    | ⟨0, _⟩ => exact lhs_mm_0 _ _
    | ⟨1, _⟩ => exact (lhs_mm_1 _ _).trans hk)
  have er : dot_S1024x256_S4096x256_S1024x4096_1_1_0_0_n_n.rhsIdx (ix2 p n) ((ValueIdx.contrEquiv1 dot_S1024x256_S4096x256_S1024x4096_1_1_0_0_n_n 256 rfl rfl).symm k) = ix2 n k := funext fun a => Fin.ext (by
    match a with
    | ⟨0, _⟩ => exact rhs_mm_0 _ _
    | ⟨1, _⟩ => exact (rhs_mm_1 _ _).trans hk)
  rw [el, er]

/-- The reset value is zero everywhere. -/
theorem pay1_apply (p : Fin 1024) (n : Fin 4096) : (k0_pay1 (F := Ideal)) (ix2 p n) = (0 : EReal) := by
  unfold k0_pay1
  simp only [shapeCast_self]
  exact Ideal.ofBits_zero_f32

/-- One step: what the accumulator held plus the block product. -/
theorem pay2_apply (a : Vec Ideal S1024x4096 .f32) (x0 : Vec Ideal S1024x256 .bf16) (w0 : Vec Ideal S4096x256 .bf16)
    (p : Fin 1024) (n : Fin 4096) :
    (k0_pay2 a x0 w0 (ix2 p n) : EReal) = (a (ix2 p n) : EReal) + ∑ j : Fin 256, (x0 (ix2 p j) : EReal) * (w0 (ix2 n j) : EReal) := by
  unfold k0_pay2
  simp only [shapeCast_self]
  refine (addf_apply _ _ _).trans ?_
  exact congrArg (fun z => (a (ix2 p n) : EReal) + z) (mm_apply x0 w0 p n)

/-- The last step's output at (p, e): the left half's entry times its logistic, times the right half's entry. -/
theorem pay3_apply (a : Vec Ideal S1024x4096 .f32) (p : Fin 1024) (e : Fin 2048) :
    (k0_pay3 a (ix2 p e) : EReal)
      = Cert.Spec.swiglu (a (ix2 p (⟨e.val, by omega⟩ : Fin 4096))) (a (ix2 p (⟨2048 + e.val, by omega⟩ : Fin 4096))) := by
  unfold k0_pay3 Cert.Spec.swiglu
  have eg : extractStridedSlice S1024x2048 ![0, 0] a slices_S1024x4096_o0_0_S1024x2048 (ix2 p e) = a (ix2 p (⟨e.val, by omega⟩ : Fin 4096)) :=
    extractStridedSlice_apply ![0, 0] a slices_S1024x4096_o0_0_S1024x2048 (ix2 p e) _ (fun b => match b with
      | ⟨0, _⟩ => by show p.val = 0 + p.val; omega
      | ⟨1, _⟩ => by show e.val = 0 + e.val; omega)
  have eu : extractStridedSlice S1024x2048 ![0, 2048] a slices_S1024x4096_o0_2048_S1024x2048 (ix2 p e) = a (ix2 p (⟨2048 + e.val, by omega⟩ : Fin 4096)) :=
    extractStridedSlice_apply ![0, 2048] a slices_S1024x4096_o0_2048_S1024x2048 (ix2 p e) _ (fun b => match b with
      | ⟨0, _⟩ => by show p.val = 0 + p.val; omega
      | ⟨1, _⟩ => by show 2048 + e.val = 2048 + e.val; omega)
  show (extractStridedSlice S1024x2048 ![0, 0] a slices_S1024x4096_o0_0_S1024x2048 (ix2 p e)
      * Ideal.logistic (extractStridedSlice S1024x2048 ![0, 0] a slices_S1024x4096_o0_0_S1024x2048 (ix2 p e)))
      * extractStridedSlice S1024x2048 ![0, 2048] a slices_S1024x4096_o0_2048_S1024x2048 (ix2 p e) = _
  rw [eg, eu]

variable (V : (c : Dev nD) → (b : Ref sig .tc) → Buf (Elt Ideal) ((c : Thread nD τ).loc b))

/-! ## The blocks a point reads

Point t = 28 · i + k reads rows [1024 i, 1024 i + 1024) × columns [256 k, 256 k + 256) of x, and all rows ×
columns [256 k, 256 k + 256) of the weights; it writes rows [1024 i, 1024 i + 1024) of the output. -/

theorem idx_facts0 : ∀ t : Fin cfg0.N, win0_0.index t (0 : Fin 2) = t.val / 28 ∧ win0_0.index t (1 : Fin 2) = t.val % 28
    ∧ win0_1.index t (0 : Fin 2) = 0 ∧ win0_1.index t (1 : Fin 2) = t.val % 28
    ∧ win0_2.index t (0 : Fin 2) = t.val / 28 ∧ win0_2.index t (1 : Fin 2) = 0 :=
  (by decide +kernel : ∀ t : Fin grid0.N, _)

theorem xblk_apply (c : Dev nD) (t : Fin cfg0.N) (p : Fin 1024) (j : Fin 256) (r : Fin 4096) (k : Fin 7168)
    (hr : r.val = 1024 * (t.val / 28) + p.val) (hk : k.val = 256 * (t.val % 28) + j.val) :
    (xblk V c t (ix2 p j) : EReal) = (V c main_v0 : S4096x7168.Idx → EReal) (ix2 r k) := by
  obtain ⟨e0, e1, -⟩ := idx_facts0 t
  unfold xblk iblk0
  rw [View.read_apply]
  show V c main_v0 _ = V c main_v0 _
  congr 1
  funext a
  apply Fin.ext
  match a with
  | ⟨0, _⟩ => show win0_0.index t 0 * 1024 + 1 * p.val = r.val; rw [e0, hr]; omega
  | ⟨1, _⟩ => show win0_0.index t 1 * 256 + 1 * j.val = k.val; rw [e1, hk]; omega

theorem wblk_apply (c : Dev nD) (t : Fin cfg0.N) (n : Fin 4096) (j : Fin 256) (k : Fin 7168)
    (hk : k.val = 256 * (t.val % 28) + j.val) :
    (wblk V c t (ix2 n j) : EReal) = (V c main_v1 : S4096x7168.Idx → EReal) (ix2 n k) := by
  obtain ⟨-, -, e0, e1, -⟩ := idx_facts0 t
  unfold wblk iblk0
  rw [View.read_apply]
  show V c main_v1 _ = V c main_v1 _
  congr 1
  funext a
  apply Fin.ext
  match a with
  | ⟨0, _⟩ => show win0_1.index t 0 * 4096 + 1 * n.val = n.val; rw [e0]; omega
  | ⟨1, _⟩ => show win0_1.index t 1 * 256 + 1 * j.val = k.val; rw [e1, hk]; omega

/-! ## The accumulator after each point

Within grid row i the accumulator after point 28 i + k holds, at (p, n), the first k + 1 blocks' share of entry
(1024 i + p, n) of x · wᵀ: the first point of the row resets to zero before it adds, each later point adds one block. -/

/-- Block b's share of entry (r, n) of x · wᵀ: the sum over columns 256 b … 256 b + 255 (nothing past the 28 blocks). -/
def blockTerm (X W : S4096x7168.Idx → EReal) (r n : Fin 4096) (b : ℕ) : EReal :=
  if h : b < 28 then ∑ j : Fin 256, X (ix2 r (⟨b * 256 + j.val, by omega⟩ : Fin 7168)) * W (ix2 n (⟨b * 256 + j.val, by omega⟩ : Fin 7168)) else 0

/-- The product of the blocks point t reads is block t mod 28's share. -/
theorem block_eq (c : Dev nD) (t : Fin cfg0.N) (p : Fin 1024) (n : Fin 4096) (r : Fin 4096)
    (hr : r.val = 1024 * (t.val / 28) + p.val) :
    ∑ j : Fin 256, (xblk V c t (ix2 p j) : EReal) * (wblk V c t (ix2 n j) : EReal)
      = blockTerm (V c main_v0) (V c main_v1) r n (t.val % 28) := by
  unfold blockTerm
  rw [dif_pos (Nat.mod_lt _ (by decide))]
  refine Finset.sum_congr rfl fun j _ => ?_
  rw [xblk_apply V c t p j r ⟨t.val % 28 * 256 + j.val, by omega⟩ hr
      (by show t.val % 28 * 256 + j.val = 256 * (t.val % 28) + j.val; omega),
    wblk_apply V c t n j ⟨t.val % 28 * 256 + j.val, by omega⟩
      (by show t.val % 28 * 256 + j.val = 256 * (t.val % 28) + j.val; omega)]

theorem acc0_apply (c : Dev nD) (p : Fin 1024) (n : Fin 4096) (m : ℕ) :
    ∀ (hm : m < cfg0.N) (r : Fin 4096), r.val = 1024 * (m / 28) + p.val →
      (acc0 V c m hm (ix2 p n) : EReal)
        = ∑ b ∈ Finset.range (m % 28 + 1), blockTerm (V c main_v0) (V c main_v1) r n b := by
  induction m with
  | zero =>
    intro hm r hr
    rw [show acc0 V c 0 hm = _ from acc0_reset V c ⟨0, hm⟩ rfl, pay2_apply, pay1_apply, zero_add,
      block_eq V c ⟨0, hm⟩ p n r hr]
    show blockTerm _ _ r n (0 % 28) = _
    rw [Nat.zero_mod, Finset.sum_range_one]
  | succ m ih =>
    intro hm r hr
    by_cases h : (m + 1) % 28 = 0
    · rw [show acc0 V c (m + 1) hm = _ from acc0_reset V c ⟨m + 1, hm⟩ h, pay2_apply, pay1_apply, zero_add,
        block_eq V c ⟨m + 1, hm⟩ p n r hr]
      show blockTerm _ _ r n ((m + 1) % 28) = _
      rw [h, Finset.sum_range_one]
    · rw [show acc0 V c (m + 1) hm = _ from acc0_step V c ⟨m + 1, hm⟩ h, pay2_apply,
        block_eq V c ⟨m + 1, hm⟩ p n r hr]
      show (acc0 V c m (Nat.lt_of_succ_lt hm) (ix2 p n) : EReal) + blockTerm _ _ r n ((m + 1) % 28) = _
      rw [ih (Nat.lt_of_succ_lt hm) r (by omega), show (m + 1) % 28 = m % 28 + 1 by omega,
        Finset.sum_range_succ _ (m % 28 + 1)]

/-- After the last point of grid row i the accumulator holds rows 1024 i … 1024 i + 1023 of x · wᵀ: the 28 blocks'
    shares are the whole sum over the 7168 columns. -/
theorem acc0_last (c : Dev nD) (t : Fin cfg0.N) (ht : t.val % 28 = 27) (p : Fin 1024) (n : Fin 4096) (r : Fin 4096)
    (hr : r.val = 1024 * (t.val / 28) + p.val) :
    (acc0 V c t.val t.isLt (ix2 p n) : EReal) = Cert.Spec.ug (V c main_v0) (V c main_v1) r n := by
  rw [acc0_apply V c p n t.val t.isLt r hr, ht]
  show ∑ b ∈ Finset.range 28, blockTerm (V c main_v0) (V c main_v1) r n b = _
  unfold Cert.Spec.ug
  rw [Cert.Spec.sum_blocks, ← Fin.sum_univ_eq_sum_range]
  refine Finset.sum_congr rfl fun b _ => ?_
  unfold blockTerm
  rw [dif_pos b.isLt]

/-! ## From the written blocks to the array -/

/-- What the last point of grid row i stores, at (p, e), is entry (1024 i + p, e) of the hidden activation. -/
theorem pay3_acc (c : Dev nD) (t : Fin cfg0.N) (ht : t.val % 28 = 27) (y : S1024x2048.Idx) (i : S4096x2048.Idx)
    (h0 : (i 0).val = 1024 * (t.val / 28) + (y 0).val) (h1 : (i 1).val = (y 1).val) :
    (k0_pay3 (acc0 V c t.val t.isLt) y : EReal) = Cert.Spec.Hval (V c main_v0) (V c main_v1) i := by
  obtain ⟨p, e, rfl⟩ : ∃ (p : Fin 1024) (e : Fin 2048), y = ix2 p e := ⟨y 0, y 1, eq_ix2 y⟩
  have he : e = ⟨(i 1).val, idx2_lt1 i⟩ := Fin.ext h1.symm
  subst he
  rw [pay3_apply, acc0_last V c t ht p _ ⟨(i 0).val, idx2_lt0 i⟩ h0, acc0_last V c t ht p _ ⟨(i 0).val, idx2_lt0 i⟩ h0]
  rfl

/-- What a writing point writes back is its block of the hidden activation. -/
theorem flushed0_eq (c : Dev nD) (t : Fin cfg0.N) (hf : (cfg0.win 2).flush t = true) :
    (dat0 V c).flushed 2 t
      = ((cfg0.win 2).blk t).view.read (Elt Ideal) (Cert.Spec.Hval (V c main_v0) (V c main_v1)) := by
  have ht : t.val % 28 = 27 := (flush0_2 t).mp hf
  obtain ⟨-, -, -, -, e4, e5⟩ := idx_facts0 t
  show (cfg0.win 2).cut (grid0.coords t) ((dat0 V c).after 2 t) = _
  rw [after0_2]
  funext y
  rw [View.read_apply]
  refine pay3_acc V c t ht ((cfg0.win 2).xinj (grid0.coords t) y) (((cfg0.win 2).blk t).view.emb y) ?_ ?_
  · show win0_2.index t (0 : Fin 2) * 1024 + 1 * (y 0).val = 1024 * (t.val / 28) + (y 0).val
    rw [e4]; omega
  · show win0_2.index t (1 : Fin 2) * 2048 + 1 * (y 1).val = (y 1).val
    rw [e5]; omega

/-- An index of the array is in point t's block iff each coordinate is in the block's range on its axis. -/
theorem mem_blk0 (t : Fin cfg0.N) (i : S4096x2048.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v3).slice (win0_2.rect t)).set ↔ _
  rw [View.set_slice_whole, Rect.mem_set_unit]
  exact Iff.rfl

/-- Row r of the array is written by the last point of grid row r / 1024. -/
theorem cover0 (i : S4096x2048.Idx) :
    ∃ t : Fin cfg0.N, (cfg0.win 2).flush t = true ∧ i ∈ ((cfg0.win 2).blk t).view.set := by
  have h0 : (i 0).val < 4096 := (i 0).isLt
  have h1 : (i 1).val < 2048 := (i 1).isLt
  have hN : cfg0.N = 112 := N_0
  obtain ⟨t, ht⟩ : ∃ t : Fin cfg0.N, t.val = 28 * ((i 0).val / 1024) + 27 :=
    ⟨⟨28 * ((i 0).val / 1024) + 27, by rw [hN]; omega⟩, rfl⟩
  obtain ⟨-, -, -, -, e4, e5⟩ := idx_facts0 t
  refine ⟨t, (flush0_2 t).mpr (by rw [ht]; omega), ?_⟩
  rw [mem_blk0]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 2048 ≤ (i 1).val ∧ (i 1).val < win0_2.index t (1 : Fin 2) * 2048 + 2048
    rw [e5]; omega

/-- Region 0's output array after the last point is the hidden activation of the arrays it read. -/
theorem arrAt0_out (c : Dev nD) :
    ((dat0 (F := Ideal) V c).arrAt 2 cfg0.N : S4096x2048.Idx → EReal)
      = Cert.Spec.Hval (V c main_v0 : S4096x7168.Idx → EReal) (V c main_v1 : S4096x7168.Idx → EReal) :=
  (dat0 V c).arrAt_eq_of_cover 2 (Cert.Spec.Hval (V c main_v0) (V c main_v1)) (fun t hf => flushed0_eq V c t hf) cover0

end Cert.KernelIdeal.Two

end
-- ==== Proof.KiVal1.lean ====
/-
  What region 1 leaves in its output array, at the extended reals: entry (r, j) is the sum over e < 2048 of
  h[r, e] · d[j, e].
-/
import proofs.«135507_j13950053777725_1_alg».proof.Proof.KiData
import proofs.«135507_j13950053777725_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
variable (V : (c : Dev nD) → (b : Ref sig .tc) → Buf (Elt Ideal) ((c : Thread nD τ).loc b))

/-! ## The block product at an index -/

/-- The left operand's row is the result's row. -/
theorem lhs_blk_0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
/-- The left operand's column is the contraction index. -/
theorem lhs_blk_1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
/-- The right operand's row is the result's column. -/
theorem rhs_blk_0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
/-- The right operand's column is the contraction index. -/
theorem rhs_blk_1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- Entry (p, q) of the product of two 1024 × 2048 blocks along their second axes, added to zero:
    the sum over e < 2048 of x0[p, e] · x1[q, e]. -/
theorem down_apply (x0 x1 : Vec Ideal S1024x2048 .bf16) (p q : Fin 1024) :
    k1_pay1 (F := Ideal) x0 x1 (ix2 p q) = ∑ e : Fin 2048, x0 (ix2 p e) * x1 (ix2 q e) := by
  unfold k1_pay1
  simp only [shapeCast_self]
  refine (Ideal.matmul_constant_zero_apply (φ₁ := .bf16) (φ₂ := .bf16) dot_S1024x2048_S1024x2048_S1024x1024_1_1_0_0_n_n none x0 x1 (ix2 p q)).trans ?_
  rw [← Equiv.sum_comp (ValueIdx.contrEquiv1 dot_S1024x2048_S1024x2048_S1024x1024_1_1_0_0_n_n 2048 rfl rfl).symm]
  refine Finset.sum_congr rfl fun k _ => ?_
  have hk := ValueIdx.contrEquiv1_symm_val dot_S1024x2048_S1024x2048_S1024x1024_1_1_0_0_n_n 2048 rfl rfl k
  have el : dot_S1024x2048_S1024x2048_S1024x1024_1_1_0_0_n_n.lhsIdx (ix2 p q) ((ValueIdx.contrEquiv1 dot_S1024x2048_S1024x2048_S1024x1024_1_1_0_0_n_n 2048 rfl rfl).symm k) = ix2 p k := funext fun a => Fin.ext (by
    match a with
    | ⟨0, _⟩ => exact lhs_blk_0 _ _
    | ⟨1, _⟩ => exact (lhs_blk_1 _ _).trans hk)
  have er : dot_S1024x2048_S1024x2048_S1024x1024_1_1_0_0_n_n.rhsIdx (ix2 p q) ((ValueIdx.contrEquiv1 dot_S1024x2048_S1024x2048_S1024x1024_1_1_0_0_n_n 2048 rfl rfl).symm k) = ix2 q k := funext fun a => Fin.ext (by
    match a with
    | ⟨0, _⟩ => exact rhs_blk_0 _ _
    | ⟨1, _⟩ => exact (rhs_blk_1 _ _).trans hk)
  rw [el, er]

/-- The same at any index of the block. -/
theorem down_apply_idx (x0 x1 : Vec Ideal S1024x2048 .bf16) (y : S1024x1024.Idx) :
    k1_pay1 (F := Ideal) x0 x1 y = ∑ e : Fin 2048, x0 (ix2 (y 0) e) * x1 (ix2 (y 1) e) := by
  obtain ⟨a, b, rfl⟩ : ∃ a b, y = ix2 a b := ⟨y 0, y 1, eq_ix2 y⟩
  exact down_apply x0 x1 a b

/-! ## The blocks of the three windows -/

/-- The printed index maps, decided over the 28 points: at point t = 7 i + j the h block is block (i, 0), the
    down-weight block is block (j, 0), and the output block is block (i, j). -/
theorem idx_facts1 : ∀ t : Fin cfg1.N, win1_0.index t (0 : Fin 2) = t.val / 7
    ∧ win1_0.index t (1 : Fin 2) = 0
    ∧ win1_1.index t (0 : Fin 2) = t.val % 7
    ∧ win1_1.index t (1 : Fin 2) = 0
    ∧ win1_2.index t (0 : Fin 2) = t.val / 7
    ∧ win1_2.index t (1 : Fin 2) = t.val % 7 :=
  (by decide +kernel : ∀ t : Fin grid1.N, _)

/-- Row p of the h block at point t is row 1024 (t / 7) + p of h. -/
theorem hblk_apply (c : Dev nD) (t : Fin cfg1.N) (p : Fin 1024) (e : Fin 2048) (r : Fin 4096)
    (hr : r.val = 1024 * (t.val / 7) + p.val) :
    hblk (F := Ideal) V c t (ix2 p e) = (V c main_v3 : S4096x2048.Idx → EReal) (ix2 r e) := by
  obtain ⟨e0, e1, e2, e3, e4, e5⟩ := idx_facts1 t
  show V c main_v3 (((cfg1.win 0).blk t).view.emb (ix2 p e)) = V c main_v3 (ix2 r e)
  refine congrArg _ (funext fun a => Fin.ext ?_)
  match a with
  | ⟨0, _⟩ => show win1_0.index t (0 : Fin 2) * 1024 + 1 * p.val = r.val; omega
  | ⟨1, _⟩ => show win1_0.index t (1 : Fin 2) * 2048 + 1 * e.val = e.val; omega

/-- Row q of the down-weight block at point t is row 1024 (t % 7) + q of d. -/
theorem dblk_apply (c : Dev nD) (t : Fin cfg1.N) (q : Fin 1024) (e : Fin 2048) (r : Fin 7168)
    (hr : r.val = 1024 * (t.val % 7) + q.val) :
    dblk (F := Ideal) V c t (ix2 q e) = (V c main_v2 : S7168x2048.Idx → EReal) (ix2 r e) := by
  obtain ⟨e0, e1, e2, e3, e4, e5⟩ := idx_facts1 t
  show V c main_v2 (((cfg1.win 1).blk t).view.emb (ix2 q e)) = V c main_v2 (ix2 r e)
  refine congrArg _ (funext fun a => Fin.ext ?_)
  match a with
  | ⟨0, _⟩ => show win1_1.index t (0 : Fin 2) * 1024 + 1 * q.val = r.val; omega
  | ⟨1, _⟩ => show win1_1.index t (1 : Fin 2) * 2048 + 1 * e.val = e.val; omega

/-! ## What each point writes back, and the array the 28 blocks tile -/

/-- What point t writes back is block t of the product of h and d. -/
theorem flushed1_eq (c : Dev nD) (t : Fin cfg1.N) :
    (dat1 (F := Ideal) V c).flushed 2 t = ((cfg1.win 2).blk t).view.read (Elt Ideal)
      (Cert.Spec.Oval (V c main_v3 : S4096x2048.Idx → EReal) (V c main_v2 : S7168x2048.Idx → EReal)) := by
  show (cfg1.win 2).cut (grid1.coords t) ((dat1 (F := Ideal) V c).after 2 t) = _
  rw [after1_2]
  obtain ⟨e0, e1, e2, e3, e4, e5⟩ := idx_facts1 t
  funext j
  have hj0 : (j 0).val < 1024 := (j 0).isLt
  have hj1 : (j 1).val < 1024 := (j 1).isLt
  refine (down_apply_idx (hblk (F := Ideal) V c t) (dblk (F := Ideal) V c t) ((cfg1.win 2).xinj (grid1.coords t) j)).trans ?_
  rw [View.read_apply]
  unfold Cert.Spec.Oval Cert.Spec.oEntry
  refine Finset.sum_congr rfl fun e _ => ?_
  refine congrArg₂ (· * ·) (hblk_apply V c t _ e _ ?_) (dblk_apply V c t _ e _ ?_)
  · show win1_2.index t (0 : Fin 2) * 1024 + 1 * (j 0).val = 1024 * (t.val / 7) + (j 0).val
    omega
  · show win1_2.index t (1 : Fin 2) * 1024 + 1 * (j 1).val = 1024 * (t.val % 7) + (j 1).val
    omega

/-- An index of the array is in point t's block iff each coordinate is in the block's range on its axis. -/
theorem mem_blk1 (t : Fin cfg1.N) (i : S4096x7168.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v4).slice (win1_2.rect t)).set ↔ _
  rw [View.set_slice_whole, Rect.mem_set_unit]
  exact Iff.rfl

/-- Every index (r, q) of the 4096 × 7168 array is in the block of the point 7 (r / 1024) + q / 1024. -/
theorem cover1 (i : S4096x7168.Idx) :
    ∃ t : Fin cfg1.N, (cfg1.win 2).flush t = true ∧ i ∈ ((cfg1.win 2).blk t).view.set := by
  have hi0 : (i 0).val < 4096 := (i 0).isLt
  have hi1 : (i 1).val < 7168 := (i 1).isLt
  have hN : cfg1.N = 28 := N_1
  let t : Fin cfg1.N := ⟨7 * ((i 0).val / 1024) + (i 1).val / 1024, by rw [hN]; omega⟩
  have ht : t.val = 7 * ((i 0).val / 1024) + (i 1).val / 1024 := rfl
  obtain ⟨e0, e1, e2, e3, e4, e5⟩ := idx_facts1 t
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- Region 1's output array after the last point is the product of the arrays it read. -/
theorem arrAt1_out (c : Dev nD) :
    ((dat1 (F := Ideal) V c).arrAt 2 cfg1.N : S4096x7168.Idx → EReal)
      = Cert.Spec.Oval (V c main_v3 : S4096x2048.Idx → EReal) (V c main_v2 : S7168x2048.Idx → EReal) :=
  (dat1 (F := Ideal) V c).arrAt_eq_of_cover 2
    (Cert.Spec.Oval (V c main_v3 : S4096x2048.Idx → EReal) (V c main_v2 : S7168x2048.Idx → EReal))
    (fun t _ => flushed1_eq V c t) cover1

end Cert.KernelIdeal.Two

end
-- ==== Proof.KiFinal.lean ====
/-
  The idealized kernel program's result array as one function of its arguments, at the extended reals: region 1's
  output is the product of region 0's output with the rounded down weights, region 0's output is the hidden
  activation of the rounded x and stacked weights, and rounding to bf16 is the identity on extended reals.
-/
import proofs.«135507_j13950053777725_1_alg».proof.Proof.KiRun
import proofs.«135507_j13950053777725_1_alg».proof.Proof.KiVal0
import proofs.«135507_j13950053777725_1_alg».proof.Proof.KiVal1
import Idealize.ShloMosaic.Lib.StableHlo.Run

set_option maxRecDepth 16384

noncomputable section

namespace Cert.KernelIdeal.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
variable (m : (ℓ : Loc nD τ sig) → Buf (Elt Ideal) ℓ)

/-- After the host operations the three rounded copies hold the arguments themselves. -/
theorem U1_main_v0 (c : Dev nD) : (U1 m c main_v0 : S4096x7168.Idx → EReal) = m ((c : Thread nD τ).loc main_arg0) := by
  show StableHlo.after hostOps0 (B0 m c) (Proc.devRef .tc main_v0) = _
  after_results; rfl
theorem U1_main_v1 (c : Dev nD) : (U1 m c main_v1 : S4096x7168.Idx → EReal) = m ((c : Thread nD τ).loc main_arg1) := by
  show StableHlo.after hostOps0 (B0 m c) (Proc.devRef .tc main_v1) = _
  after_results; rfl
theorem U1_main_v2 (c : Dev nD) : (U1 m c main_v2 : S7168x2048.Idx → EReal) = m ((c : Thread nD τ).loc main_arg2) := by
  show StableHlo.after hostOps0 (B0 m c) (Proc.devRef .tc main_v2) = _
  after_results; rfl

/-- Region 1 reads the hidden activation region 0 wrote and the rounded down weights. -/
theorem U2_main_v3 (c : Dev nD) : (U2 m c main_v3 : S4096x2048.Idx → EReal)
    = Cert.Spec.Hval (m ((c : Thread nD τ).loc main_arg0)) (m ((c : Thread nD τ).loc main_arg1)) := by
  have h := arrAt0_out (U1 m) c
  rw [U1_main_v0, U1_main_v1] at h
  exact (B2_arr m c 2).trans h
theorem U2_main_v2 (c : Dev nD) : (U2 m c main_v2 : S7168x2048.Idx → EReal) = m ((c : Thread nD τ).loc main_arg2) :=
  (B2_of_ne m c main_v2 (by decide)).trans (U1_main_v2 m c)

/-- The result array after the run. -/
theorem result_eq (c : Dev nD) : ((dat1 (F := Ideal) (U2 m) c).arrAt 2 cfg1.N : S4096x7168.Idx → EReal)
    = Cert.Spec.Oval (Cert.Spec.Hval (m ((c : Thread nD τ).loc main_arg0)) (m ((c : Thread nD τ).loc main_arg1))) (m ((c : Thread nD τ).loc main_arg2)) := by
  rw [arrAt1_out (U2 m) c, U2_main_v3, U2_main_v2]

end Cert.KernelIdeal.Two

end
-- ==== Proof.RefVal.lean ====
/-
  The reference program's result, read index by index at the extended reals, is the same function of the three
  arguments: its two `dot_general`s are the plain sums, its slices pick the two halves of x · wᵀ, and the reference's expansion
  of the logistic function (1 / (1 + exp (-g))) is the logistic function.
-/
import proofs.«135507_j13950053777725_1_alg».proof.Proof.Gen.ReferenceIdeal.Run
import proofs.«135507_j13950053777725_1_alg».proof.Proof.Gen.ReferenceIdeal.Read
import proofs.«135507_j13950053777725_1_alg».proof.Proof.Spec
import Idealize.ShloMosaic.Lib.ValueIdx
import Idealize.ShloMosaic.Lib.IdealHost
import Idealize.ShloMosaic.PureOps.Ideal.Laws

set_option maxRecDepth 16384

noncomputable section

namespace Cert.ReferenceIdeal.RefValue

open Idealize.ShloMosaic Idealize.ShloMosaic.ValueIdx Cert.ReferenceIdeal Cert.ReferenceIdeal.Gen

/-- The first `dot_general` at (r, n) is entry (r, n) of x · wᵀ. -/
theorem v0_is_ug (x0 x1 : (⟨S4096x7168, .f32⟩ : BufTy).Contents (Elt Ideal)) (r n : Fin 4096) :
    Cert.ReferenceIdeal.Read.val_main_v0 (F := Ideal) x0 x1 (ix2 r n)
      = Cert.Spec.ug (x0 : S4096x7168.Idx → EReal) (x1 : S4096x7168.Idx → EReal) r n := by
  rw [Read.val_main_v0_apply]
  unfold Cert.Spec.ug
  refine Finset.sum_congr rfl fun k _ => ?_
  have hl : Read.lidx_main_v0 (ix2 r n) k = ix2 r k :=
    funext fun a => Fin.ext (by match a with | ⟨0, _⟩ => rfl | ⟨1, _⟩ => rfl)
  have hr : Read.ridx_main_v0 (ix2 r n) k = ix2 n k :=
    funext fun a => Fin.ext (by match a with | ⟨0, _⟩ => rfl | ⟨1, _⟩ => rfl)
  rw [hl, hr]

/-- The reference's hidden activation at (r, e) is the specification's. -/
theorem v4_is_h (x0 x1 : (⟨S4096x7168, .f32⟩ : BufTy).Contents (Elt Ideal)) (r : Fin 4096) (e : Fin 2048) :
    Cert.ReferenceIdeal.Read.val_main_v4 (F := Ideal) x0 x1 (ix2 r e)
      = Cert.Spec.hEntry (x0 : S4096x7168.Idx → EReal) (x1 : S4096x7168.Idx → EReal) r e := by
  -- the two slices read x · wᵀ at columns e and 2048 + e
  have h1 : Read.idx_main_v1 (ix2 r e) = ix2 r (⟨e.val, by omega⟩ : Fin 4096) :=
    funext fun a => Fin.ext (by match a with | ⟨0, _⟩ => rfl | ⟨1, _⟩ => rfl)
  have h2 : Read.idx_main_v2 (ix2 r e) = ix2 r (⟨2048 + e.val, by omega⟩ : Fin 4096) :=
    funext fun a => Fin.ext (by match a with | ⟨0, _⟩ => rfl | ⟨1, _⟩ => rfl)
  rw [Read.val_main_v4_apply, Read.val_main_v3_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply,
    Read.val_main_v1_apply, Read.val_main_v2_apply, h1, h2, v0_is_ug, v0_is_ug]
  -- 1 / (1 + exp (-g)) is the logistic function of g, and the literal is one
  simp only [Ideal.mulf_def, Ideal.addf_def, Ideal.hostDivf_def, Ideal.hostUnary_exp_def, Ideal.hostNegf_def,
    Ideal.negf_def, Ideal.ofBits_def, Ideal.ofBits_one_f32]
  rfl

/-- The reference's last stage is the specification's function of the arguments. -/
theorem ref_is_spec (x0 x1 : (⟨S4096x7168, .f32⟩ : BufTy).Contents (Elt Ideal)) (x2 : (⟨S7168x2048, .f32⟩ : BufTy).Contents (Elt Ideal)) :
    (Cert.ReferenceIdeal.Read.val_main_v5 (F := Ideal) x0 x1 x2 : S4096x7168.Idx → EReal)
      = Cert.Spec.Oval (Cert.Spec.Hval (x0 : S4096x7168.Idx → EReal) (x1 : S4096x7168.Idx → EReal)) (x2 : S7168x2048.Idx → EReal) := by
  funext i
  obtain ⟨r, j, rfl⟩ : ∃ (r : Fin 4096) (j : Fin 7168), i = ix2 r j := ⟨i 0, i 1, eq_ix2 i⟩
  rw [Read.val_main_v5_apply]
  show _ = Cert.Spec.oEntry _ _ r j
  unfold Cert.Spec.oEntry
  refine Finset.sum_congr rfl fun e _ => ?_
  have hl : Read.lidx_main_v5 (ix2 r j) e = ix2 r e :=
    funext fun a => Fin.ext (by match a with | ⟨0, _⟩ => rfl | ⟨1, _⟩ => rfl)
  have hr : Read.ridx_main_v5 (ix2 r j) e = ix2 j e :=
    funext fun a => Fin.ext (by match a with | ⟨0, _⟩ => rfl | ⟨1, _⟩ => rfl)
  rw [hl, hr, v4_is_h]
  rfl

end Cert.ReferenceIdeal.RefValue

end
-- ==== Proof.lean ====
/-
  The certificate of a SwiGLU MLP (x · w_up_gateᵀ, split in halves, (gate · logistic gate) · up, then · w_downᵀ) computed
  by two pallas_calls — the first accumulating x · wᵀ over 28 column blocks in a scratch accumulator and applying the
  activation at the last block, the second a blocked matrix product — against the plain jnp reference, at the extended
  reals.
  Both idealized programs compute out[r, j] = Σ_e h[r, e] · d[j, e] with h[r, e] = (ug[r, e] · logistic ug[r, e]) · ug[r, 2048 + e]
  and ug[r, n] = Σ_k x[r, k] · w[n, k]: rounding to bf16 is the identity on extended reals, the kernel's logistic and the
  reference's 1 / (1 + exp (-g)) are one function, and the kernel's grouping of the sum over k into blocks of 256 is a
  regrouping in a commutative monoid, so the finiteness of the inputs is never used. The ideal pass rewrote nothing,
  so `preserves` has nothing to state. The frames of the two kernel programs are their runs with the result dropped.
-/
import proofs.«135507_j13950053777725_1_alg».proof.Defs
import proofs.«135507_j13950053777725_1_alg».proof.Proof.Gen.Kernel
import proofs.«135507_j13950053777725_1_alg».proof.Proof.Gen.KernelIdeal
import proofs.«135507_j13950053777725_1_alg».proof.Proof.Gen.ReferenceIdeal
import proofs.«135507_j13950053777725_1_alg».proof.Proof.Gen.ReferenceIdeal.Run
import proofs.«135507_j13950053777725_1_alg».proof.Proof.Gen.ReferenceIdeal.Read
import proofs.«135507_j13950053777725_1_alg».proof.Proof.Gen.Pre_finite_inputs
import proofs.«135507_j13950053777725_1_alg».proof.Proof.KRun
import proofs.«135507_j13950053777725_1_alg».proof.Proof.KiRun
import proofs.«135507_j13950053777725_1_alg».proof.Proof.KiFinal
import proofs.«135507_j13950053777725_1_alg».proof.Proof.RefVal
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel (hKernel := Cert.Kernel.Gen.facts) (hPre_finite_inputs := Cert.Pre_finite_inputs.Gen.facts) :=
  fun m ρ _ => Cert.Kernel.Two.frame m ρ

/-- So does the idealized one. -/
theorem frame_ki : Cert.frame_KernelIdeal (hKernelIdeal := Cert.KernelIdeal.Gen.facts) (hPre_finite_inputs := Cert.Pre_finite_inputs.Gen.facts) :=
  fun m ρ _ => Cert.KernelIdeal.Two.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Run from memories that agree on the three arguments, both idealized programs end with the result array at
    Σ_e h[r, e] · d[j, e] of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.Oval (Cert.Spec.Hval (m ((c.tc : Thread Cert.KernelIdeal.nD Cert.KernelIdeal.τ).loc Cert.KernelIdeal.main_arg0))
      (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Two.result_eq m c), (h c).2⟩) (Cert.KernelIdeal.Two.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.ReferenceIdeal.RefValue.ref_is_spec, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
